-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S2x524288 : Shape := ⟨2, ![2, 524288]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x64 .f32) (main_arg1 : IVec S2x524288 32) (main_arg2 : FVec F S64x64 .f32) (main_arg3 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x64 : Shape := ⟨2, ![16384, 64]⟩
abbrev S2x524288 : Shape := ⟨2, ![2, 524288]⟩
abbrev S64x64 : Shape := ⟨2, ![64, 64]⟩
abbrev S64 : Shape := ⟨1, ![64]⟩
abbrev S2048x64 : Shape := ⟨2, ![2048, 64]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S540672x64 : Shape := ⟨2, ![540672, 64]⟩
abbrev S1x64 : Shape := ⟨2, ![1, 64]⟩
abbrev S16384x16384 : Shape := ⟨2, ![16384, 16384]⟩
abbrev S1024x64 : Shape := ⟨2, ![1024, 64]⟩
abbrev S2048x1024 : Shape := ⟨2, ![2048, 1024]⟩

abbrev nBuf : Space → Nat
  | .hbm => 63
  | .vmem => 12
  | .smem => 0
  | _ => 0

abbrev bufTy : (tb : Table) → Fin (tcTables nBuf tb) → BufTy
  | .hbm, ⟨0, _⟩ => ⟨S16384x64, .f32⟩
  | .hbm, ⟨1, _⟩ => ⟨S2x524288, .i32⟩
  | .hbm, ⟨2, _⟩ => ⟨S64x64, .f32⟩
  | .hbm, ⟨3, _⟩ => ⟨S64, .f32⟩
  | .hbm, ⟨4, _⟩ => ⟨S16384x64, .f32⟩
  | .hbm, ⟨5, _⟩ => ⟨S16384, .i32⟩
  | .hbm, ⟨6, _⟩ => ⟨S1x524288, .i32⟩
  | .hbm, ⟨7, _⟩ => ⟨S524288, .i32⟩
  | .hbm, ⟨8, _⟩ => ⟨S540672, .i32⟩
  | .hbm, ⟨9, _⟩ => ⟨S1x524288, .i32⟩
  | .hbm, ⟨10, _⟩ => ⟨S524288, .i32⟩
  | .hbm, ⟨11, _⟩ => ⟨S540672, .i32⟩
  | .hbm, ⟨12, _⟩ => ⟨S_, .f32⟩
  | .hbm, ⟨13, _⟩ => ⟨S540672, .f32⟩
  | .hbm, ⟨14, _⟩ => ⟨S_, .f32⟩
  | .hbm, ⟨15, _⟩ => ⟨S16384, .f32⟩
  | .hbm, ⟨16, _⟩ => ⟨S540672x1, .i32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .i1⟩
  | .hbm, ⟨21, _⟩ => ⟨S16384, .f32⟩
  | .hbm, ⟨22, _⟩ => ⟨S_, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S_, .i32⟩
  | .hbm, ⟨27, _⟩ => ⟨S540672, .i32⟩
  | .hbm, ⟨28, _⟩ => ⟨S540672, .i1⟩
  | .hbm, ⟨29, _⟩ => ⟨S_, .i32⟩
  | .hbm, ⟨30, _⟩ => ⟨S540672, .i32⟩
  | .hbm, ⟨31, _⟩ => ⟨S540672, .i32⟩
  | .hbm, ⟨32, _⟩ => ⟨S540672, .i32⟩
  | .hbm, ⟨33, _⟩ => ⟨S540672x1, .i32⟩
  | .hbm, ⟨34, _⟩ => ⟨S540672, .f32⟩
  | .hbm, ⟨35, _⟩ => ⟨S_, .i32⟩
  | .hbm, ⟨36, _⟩ => ⟨S540672, .i32⟩
  | .hbm, ⟨37, _⟩ => ⟨S540672, .i1⟩
  | .hbm, ⟨38, _⟩ => ⟨S_, .i32⟩
  | .hbm, ⟨39, _⟩ => ⟨S540672, .i32⟩
  | .hbm, ⟨40, _⟩ => ⟨S540672, .i32⟩
  | .hbm, ⟨41, _⟩ => ⟨S540672, .i32⟩
  | .hbm, ⟨42, _⟩ => ⟨S540672x1, .i32⟩
  | .hbm, ⟨43, _⟩ => ⟨S540672, .f32⟩
  | .hbm, ⟨44, _⟩ => ⟨S540672, .f32⟩
  | .hbm, ⟨45, _⟩ => ⟨S_, .i32⟩
  | .hbm, ⟨46, _⟩ => ⟨S540672, .i32⟩
  | .hbm, ⟨47, _⟩ => ⟨S540672, .i1⟩
  | .hbm, ⟨48, _⟩ => ⟨S_, .i32⟩
  | .hbm, ⟨49, _⟩ => ⟨S540672, .i32⟩
  | .hbm, ⟨50, _⟩ => ⟨S540672, .i32⟩
  | .hbm, ⟨51, _⟩ => ⟨S540672, .i32⟩
  | .hbm, ⟨52, _⟩ => ⟨S540672x1, .i32⟩
  | .hbm, ⟨53, _⟩ => ⟨S540672x64, .f32⟩
  | .hbm, ⟨54, _⟩ => ⟨S540672x1, .f32⟩
  | .hbm, ⟨55, _⟩ => ⟨S540672x64, .f32⟩
  | .hbm, ⟨56, _⟩ => ⟨S540672x64, .f32⟩
  | .hbm, ⟨57, _⟩ => ⟨S_, .f32⟩
  | .hbm, ⟨58, _⟩ => ⟨S16384x64, .f32⟩
  | .hbm, ⟨59, _⟩ => ⟨S540672x1, .i32⟩
  | .hbm, ⟨60, _⟩ => ⟨S16384x64, .f32⟩
  | .hbm, ⟨61, _⟩ => ⟨S1x64, .f32⟩
  | .hbm, ⟨62, _⟩ => ⟨S16384x16384, .f32⟩
  | .local _ .vmem, ⟨0, _⟩ => ⟨S2048x64, .f32⟩
  | .local _ .vmem, ⟨1, _⟩ => ⟨S2048x64, .f32⟩
  | .local _ .vmem, ⟨2, _⟩ => ⟨S64x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S1024x64, .f32⟩
  | .local _ .vmem, ⟨8, _⟩ => ⟨S1024x64, .f32⟩
  | .local _ .vmem, ⟨9, _⟩ => ⟨S1x64, .f32⟩
  | .local _ .vmem, ⟨10, _⟩ => ⟨S2048x1024, .f32⟩
  | .local _ .vmem, ⟨11, _⟩ => ⟨S2048x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S2048x64_S2048x64 : S2048x64.ShapeCasts S2048x64
  broadcasts_S1x64_S2048x64 : S1x64.Broadcasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1x64_S1024x64 : S1x64.Broadcasts S1024x64
  inb_S2048x1024_S2048x1024_0_0 : ∀ a, (![0, 0] : Fin 2 → Nat) a + S2048x1024.size a ≤ S2048x1024.size a
  h_S2048x1024 : 0 < S2048x1024.numel
  dot_S2048x64_S64x64_S2048x64_1_0_0_1_n_n_wf : DotDims.WF S2048x64 S64x64 S2048x64 [1] [0] [0] [1] [] []
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S16384x64.size a
  hwx1_1 : ∀ i : grid1.Coords, EltTy.bits .f32 = 32 ∨ (Rect.block (s := S16384x64) S1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S16384x16384.size a
  hwx1_3 : ∀ i : grid1.Coords, EltTy.bits .f32 = 32 ∨ (Rect.block (s := S16384x16384) S2048x1024.size (cc1_transform_3 i) (hinb1_3 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x64 : Shape := ⟨2, ![16384, 64]⟩
abbrev S2x524288 : Shape := ⟨2, ![2, 524288]⟩
abbrev S64x64 : Shape := ⟨2, ![64, 64]⟩
abbrev S64 : Shape := ⟨1, ![64]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S540672x64 : Shape := ⟨2, ![540672, 64]⟩
abbrev S1x64 : Shape := ⟨2, ![1, 64]⟩
abbrev S64x16384 : Shape := ⟨2, ![64, 16384]⟩
abbrev S16384x16384 : Shape := ⟨2, ![16384, 16384]⟩

abbrev nBuf : Space → Nat
  | .hbm => 69
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S2x524288, .i32⟩
  | .hbm, ⟨2, _⟩ => ⟨S64x64, .f32⟩
  | .hbm, ⟨3, _⟩ => ⟨S64, .f32⟩
  | .hbm, ⟨4, _⟩ => ⟨S16384, .i32⟩
  | .hbm, ⟨5, _⟩ => ⟨S1x524288, .i32⟩
  | .hbm, ⟨6, _⟩ => ⟨S524288, .i32⟩
  | .hbm, ⟨7, _⟩ => ⟨S540672, .i32⟩
  | .hbm, ⟨8, _⟩ => ⟨S1x524288, .i32⟩
  | .hbm, ⟨9, _⟩ => ⟨S524288, .i32⟩
  | .hbm, ⟨10, _⟩ => ⟨S540672, .i32⟩
  | .hbm, ⟨11, _⟩ => ⟨S_, .f32⟩
  | .hbm, ⟨12, _⟩ => ⟨S540672, .f32⟩
  | .hbm, ⟨13, _⟩ => ⟨S_, .f32⟩
  | .hbm, ⟨14, _⟩ => ⟨S16384, .f32⟩
  | .hbm, ⟨15, _⟩ => ⟨S540672x1, .i32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .i1⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .i32⟩
  | .hbm, ⟨26, _⟩ => ⟨S540672, .i32⟩
  | .hbm, ⟨27, _⟩ => ⟨S540672, .i1⟩
  | .hbm, ⟨28, _⟩ => ⟨S_, .i32⟩
  | .hbm, ⟨29, _⟩ => ⟨S540672, .i32⟩
  | .hbm, ⟨30, _⟩ => ⟨S540672, .i32⟩
  | .hbm, ⟨31, _⟩ => ⟨S540672, .i32⟩
  | .hbm, ⟨32, _⟩ => ⟨S540672x1, .i32⟩
  | .hbm, ⟨33, _⟩ => ⟨S540672, .f32⟩
  | .hbm, ⟨34, _⟩ => ⟨S_, .i32⟩
  | .hbm, ⟨35, _⟩ => ⟨S540672, .i32⟩
  | .hbm, ⟨36, _⟩ => ⟨S540672, .i1⟩
  | .hbm, ⟨37, _⟩ => ⟨S_, .i32⟩
  | .hbm, ⟨38, _⟩ => ⟨S540672, .i32⟩
  | .hbm, ⟨39, _⟩ => ⟨S540672, .i32⟩
  | .hbm, ⟨40, _⟩ => ⟨S540672, .i32⟩
  | .hbm, ⟨41, _⟩ => ⟨S540672x1, .i32⟩
  | .hbm, ⟨42, _⟩ => ⟨S540672, .f32⟩
  | .hbm, ⟨43, _⟩ => ⟨S540672, .f32⟩
  | .hbm, ⟨44, _⟩ => ⟨S16384x64, .f32⟩
  | .hbm, ⟨45, _⟩ => ⟨S_, .i32⟩
  | .hbm, ⟨46, _⟩ => ⟨S540672, .i32⟩
  | .hbm, ⟨47, _⟩ => ⟨S540672, .i1⟩
  | .hbm, ⟨48, _⟩ => ⟨S_, .i32⟩
  | .hbm, ⟨49, _⟩ => ⟨S540672, .i32⟩
  | .hbm, ⟨50, _⟩ => ⟨S540672, .i32⟩
  | .hbm, ⟨51, _⟩ => ⟨S540672, .i32⟩
  | .hbm, ⟨52, _⟩ => ⟨S540672x1, .i32⟩
  | .hbm, ⟨53, _⟩ => ⟨S540672x64, .f32⟩
  | .hbm, ⟨54, _⟩ => ⟨S540672x1, .f32⟩
  | .hbm, ⟨55, _⟩ => ⟨S540672x64, .f32⟩
  | .hbm, ⟨56, _⟩ => ⟨S540672x64, .f32⟩
  | .hbm, ⟨57, _⟩ => ⟨S_, .f32⟩
  | .hbm, ⟨58, _⟩ => ⟨S16384x64, .f32⟩
  | .hbm, ⟨59, _⟩ => ⟨S540672x1, .i32⟩
  | .hbm, ⟨60, _⟩ => ⟨S16384x64, .f32⟩
  | .hbm, ⟨61, _⟩ => ⟨S1x64, .f32⟩
  | .hbm, ⟨62, _⟩ => ⟨S16384x64, .f32⟩
  | .hbm, ⟨63, _⟩ => ⟨S16384x64, .f32⟩
  | .hbm, ⟨64, _⟩ => ⟨S_, .f32⟩
  | .hbm, ⟨65, _⟩ => ⟨S16384x64, .f32⟩
  | .hbm, ⟨66, _⟩ => ⟨S16384x64, .f32⟩
  | .hbm, ⟨67, _⟩ => ⟨S64x16384, .f32⟩
  | .hbm, ⟨68, _⟩ => ⟨S16384x16384, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S16384x64_S64x16384_1_0 : S16384x64.Transposes [1, 0] S64x16384
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x64_S64x64_S16384x64_1_0_0_1_n_n_wf : DotDims.WF S16384x64 S64x64 S16384x64 [1] [0] [0] [1] [] []
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S16384x64_S64x16384_S16384x16384_1_0_0_1_n_n_wf : DotDims.WF S16384x64 S64x16384 S16384x16384 [1] [0] [0] [1] [] []

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.Kernel.Reg0.lean ====
/-
  Region 0 of the kernel's @main: the row-tiled projection. The grid has 8 points; at point `t`
  the pipeline stages rows [2048·t, 2048·(t+1)) of the [16384, 64] operand, the whole [64, 64] weight (once), and
  an output buffer of the same row block. The body loads the three buffers whole, multiplies the row block by
  the weight on the matrix unit into a zero accumulator, and overwrites the output buffer with the product; what
  it read from the output buffer is not used. Stated here, at any instance `F` and for any contents `V` the
  core's buffers hold when the region is entered: the body's triple, the proof data of the pipeline (each input
  buffer keeps its block, the output buffer ends at the product of the two input blocks), and the obligation of
  the body at every grid point.
-/
import proofs.«169551_j3745211482437_1_alg».proof.Proof.Gen.Kernel.Launch
import proofs.«169551_j3745211482437_1_alg».proof.Proof.Gen.Kernel.Skeleton
import proofs.«169551_j3745211482437_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`: the entries of the window's array (as the region finds it)
    that the window's index map selects there. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole [2048, 64] buffer as one rectangle, and the whole [64, 64] one. -/
abbrev rowsRect : Rect S2048x64 := Rect.unit (s := S2048x64) ![0, 0] S2048x64.size inb_S2048x64_S2048x64_0_0
abbrev wRect : Rect S64x64 := Rect.unit (s := S64x64) ![0, 0] S64x64.size inb_S64x64_S64x64_0_0

/-- What the body leaves in the output buffer: its one store, of the product of the row block and the weight. -/
def linOut (x : Vec F S2048x64 .f32) (w : Vec F S64x64 .f32) : Vec F S2048x64 .f32 :=
  View.canon [⟨rowsRect, k0_pay1 (View.ld x rowsRect) (View.ld w wRect)⟩]

/-- The one store covers the output buffer. -/
theorem linCover (p : Vec F S2048x64 .f32) (y : S2048x64.Idx) :
    ∃ pc ∈ ([⟨rowsRect, p⟩] : List (View.Piece (Elt F) S2048x64 .f32)), y ∈ pc.1.set :=
  View.cover_of_tiled [⟨rowsRect, p⟩] S2048x64.size (by rfl) y

/-! ## The body's triple -/

set_option maxHeartbeats 1000000 in
/-- The body on whole buffers — the two inputs at `x` and `w`, the output at anything — runs to its continuation with
    the inputs as they were and the output at `linOut x w`. -/
theorem linBody (c : Dev nD) (E : Set ℕ) (i : grid0.Coords)
    (arg1 : Memref sig .tc .vmem S2048x64 .f32) (harg1 : arg1.IsWhole) (arg2 : Memref sig .tc .vmem S64x64 .f32) (harg2 : arg2.IsWhole)
    (arg3 : Memref sig .tc .vmem S2048x64 .f32) (harg3 : arg3.IsWhole)
    (x : Vec F S2048x64 .f32) (w : Vec F S64x64 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (linOut x w)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (linCover _)

/-! ## The pipeline's proof data -/

/-- Pipeline 0's proof data on core `c`: the arrays as the region finds them; after the body at point `t` each input
    buffer at its block and the output buffer at `linOut` of the two input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => linOut (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = linOut (blk0 V c 0 t) (blk0 V c 1 t) := by dsimp only [dat0]

/-- An input buffer holds its window's block at every point, fetched there or not: where it is not fetched, the
    index map has not moved since the point that fetched it and the body left the block in place. -/
theorem dat0_before_0 (c : Dev nD) (t : Fin cfg0.N) (d) : (dat0 V c).before 0 t d = blk0 V c 0 t :=
  ((dat0 V c).before_in_eq_fetched 0 rfl (fun _ => rfl) (fun _ _ _ => rfl)
      (fun t => by rw [dat0_after_0]; unfold Dat.blockOf blk0; rw [dat0_A]; try rfl) t d).trans
    (by unfold Dat.fetched Dat.blockOf blk0; rw [dat0_A]; try rfl)
theorem dat0_before_1 (c : Dev nD) (t : Fin cfg0.N) (d) : (dat0 V c).before 1 t d = blk0 V c 1 t :=
  ((dat0 V c).before_in_eq_fetched 1 rfl (fun _ => rfl) (fun _ _ _ => rfl)
      (fun t => by rw [dat0_after_1]; unfold Dat.blockOf blk0; rw [dat0_A]; try rfl) t d).trans
    (by unfold Dat.fetched Dat.blockOf blk0; rw [dat0_A]; try rfl)

/-! ## The body obligation -/

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_0, dat0_before_1]
  rw [show (dat0 V c).Φ t.succ = (dat0 V c).Φ t.castSucc from rfl,
    show (dat0 V c).owesAt () t.succ = (dat0 V c).owesAt () t.castSucc from rfl,
    dat0_after_0, dat0_after_1, dat0_after_2]
  iintro ⟨HΦ, Ho, ⟨%d0, H0⟩, ⟨%d1, H1⟩, ⟨%d2, H2⟩⟩
  iapply (linBody c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every point. -/
theorem body0 (c : Dev nD) : BodyObligation (dat0 (F := F) V c) (defs₀ (F := F)) Variants.none () Set.univ := fun t => by
  rw [bigSep_W0, bigSep_W0]
  exact body0_at V c t

end Cert.Kernel.Hand

end
-- ==== Proof.Kernel.Reg1.lean ====
/-
  Region 1 of the kernel's @main: the tiled product of the node features with themselves. The grid is
  8 × 16; at point (a, b) the pipeline stages rows [2048·a, 2048·(a+1)) of the [16384, 64] feature array through
  one window and rows [1024·b, 1024·(b+1)) of THE SAME array through a second window, the [1, 64] bias (once), and a
  [2048, 1024] output buffer for block (a, b) of the [16384, 16384] result. The body loads the four buffers
  whole, adds the bias to each row block, clamps at zero from below, multiplies the first block by the transpose
  of the second on the matrix unit into a zero accumulator, and overwrites the output buffer; what it read from
  the output buffer is not used. Because two input windows read one array, the core holds that array at the left
  half of the full share for the first window and at the right half for the second. Stated here, at any instance
  `F` and for any contents `V` the core's buffers hold when the region is entered: the body's triple, the
  pipeline's proof data, and the obligation of the body at every grid point.
-/
import proofs.«169551_j3745211482437_1_alg».proof.Proof.Gen.Kernel.Launch
import proofs.«169551_j3745211482437_1_alg».proof.Proof.Gen.Kernel.Skeleton
import proofs.«169551_j3745211482437_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each buffer as one rectangle. -/
abbrev biasRect : Rect S1x64 := Rect.unit (s := S1x64) ![0, 0] S1x64.size inb_S1x64_S1x64_0_0
abbrev rowRect : Rect S2048x64 := Rect.unit (s := S2048x64) ![0, 0] S2048x64.size inb_S2048x64_S2048x64_0_0
abbrev colRect : Rect S1024x64 := Rect.unit (s := S1024x64) ![0, 0] S1024x64.size inb_S1024x64_S1024x64_0_0
abbrev tileRect : Rect S2048x1024 := Rect.unit (s := S2048x1024) ![0, 0] S2048x1024.size inb_S2048x1024_S2048x1024_0_0

/-- What the body leaves in the output buffer: its one store, of the product of the two clamped, biased blocks. -/
def outerOut (hr : Vec F S2048x64 .f32) (hc : Vec F S1024x64 .f32) (b : Vec F S1x64 .f32) : Vec F S2048x1024 .f32 :=
  View.canon [⟨tileRect, k1_pay1 (View.ld b biasRect) (View.ld hr rowRect) (View.ld hc colRect)⟩]

/-- The one store covers the output buffer. -/
theorem outerCover (p : Vec F S2048x1024 .f32) (y : S2048x1024.Idx) :
    ∃ pc ∈ ([⟨tileRect, p⟩] : List (View.Piece (Elt F) S2048x1024 .f32)), y ∈ pc.1.set :=
  View.cover_of_tiled [⟨tileRect, p⟩] S2048x1024.size (by rfl) y

/-! ## The body's triple -/

set_option maxHeartbeats 1000000 in
/-- The body on whole staging buffers — the row block, the column block and the bias at their contents, the output at
    anything — runs to its continuation with the inputs as they were and the output at `outerOut hr hc b`. -/
theorem outerBody (c : Dev nD) (E : Set ℕ) (i : grid1.Coords)
    (arg2 : Memref sig .tc .vmem S2048x64 .f32) (harg2 : arg2.IsWhole) (arg3 : Memref sig .tc .vmem S1024x64 .f32) (harg3 : arg3.IsWhole)
    (arg4 : Memref sig .tc .vmem S1x64 .f32) (harg4 : arg4.IsWhole) (arg5 : Memref sig .tc .vmem S2048x1024 .f32) (harg5 : arg5.IsWhole)
    (hr : Vec F S2048x64 .f32) (hc : Vec F S1024x64 .f32) (b : Vec F S1x64 .f32) (K : PUnit → sProp 𝕄) :
    iprop(owns (c : Thread nD τ) arg2 fullShare hr ∗ owns (c : Thread nD τ) arg3 fullShare hc ∗ owns (c : Thread nD τ) arg4 fullShare b
        ∗ (∃ d, owns (c : Thread nD τ) arg5 fullShare d)
        ∗ (iprop(owns (c : Thread nD τ) arg2 fullShare hr ∗ owns (c : Thread nD τ) arg3 fullShare hc ∗ owns (c : Thread nD τ) arg4 fullShare b
            ∗ owns (c : Thread nD τ) arg5 fullShare (outerOut hr hc b)) -∗ K ⟨⟩))
      ⊢ wp frame (wpE (defs₀ (F := F)) Variants.none c none) E (cc1__outer_kernel i arg2 harg2 arg3 harg3 arg4 harg4 arg5 harg5) K := by
  simp only [cc1__outer_kernel_eq_skeleton]; unfold cc1__outer_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outerCover _)

/-! ## The pipeline's proof data -/

/-- Pipeline 1's proof data on core `c`: the arrays as the region finds them; after the body at point `t` each input
    buffer at its block and the output buffer at `outerOut` of the three input blocks; the invariant is the scoped rest
    and the generator register, untouched; nothing owed. The feature array is held at the left half of the full share
    for the row window and at the right half for the column window; the bias at the full share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outerOut (blk1 V c 0 t) (blk1 V c 1 t) (blk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) :
    (dat1 V c).after 3 t = outerOut (blk1 V c 0 t) (blk1 V c 1 t) (blk1 V c 2 t) := by dsimp only [dat1]

/-- An input buffer holds its window's block at every point, fetched there or not: where it is not fetched, the
    index map has not moved since the point that fetched it and the body left the block in place. -/
theorem dat1_before_0 (c : Dev nD) (t : Fin cfg1.N) (d) : (dat1 V c).before 0 t d = blk1 V c 0 t :=
  ((dat1 V c).before_in_eq_fetched 0 rfl (fun _ => rfl) (fun _ _ _ => rfl)
      (fun t => by rw [dat1_after_0]; unfold Dat.blockOf blk1; rw [dat1_A]; try rfl) t d).trans
    (by unfold Dat.fetched Dat.blockOf blk1; rw [dat1_A]; try rfl)
theorem dat1_before_1 (c : Dev nD) (t : Fin cfg1.N) (d) : (dat1 V c).before 1 t d = blk1 V c 1 t :=
  ((dat1 V c).before_in_eq_fetched 1 rfl (fun _ => rfl) (fun _ _ _ => rfl)
      (fun t => by rw [dat1_after_1]; unfold Dat.blockOf blk1; rw [dat1_A]; try rfl) t d).trans
    (by unfold Dat.fetched Dat.blockOf blk1; rw [dat1_A]; try rfl)
theorem dat1_before_2 (c : Dev nD) (t : Fin cfg1.N) (d) : (dat1 V c).before 2 t d = blk1 V c 2 t :=
  ((dat1 V c).before_in_eq_fetched 2 rfl (fun _ => rfl) (fun _ _ _ => rfl)
      (fun t => by rw [dat1_after_2]; unfold Dat.blockOf blk1; rw [dat1_A]; try rfl) t d).trans
    (by unfold Dat.fetched Dat.blockOf blk1; rw [dat1_A]; try rfl)

/-! ## The body obligation -/

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1, dat1_before_2]
  rw [show (dat1 V c).Φ t.succ = (dat1 V c).Φ t.castSucc from rfl,
    show (dat1 V c).owesAt () t.succ = (dat1 V c).owesAt () t.castSucc from rfl,
    dat1_after_0, dat1_after_1, dat1_after_2, dat1_after_3]
  iintro ⟨HΦ, Ho, ⟨%d0, H0⟩, ⟨%d1, H1⟩, ⟨%d2, H2⟩, ⟨%d3, H3⟩⟩
  iapply (outerBody c Set.univ (grid1.coords t) _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem body1 (c : Dev nD) : BodyObligation (dat1 (F := F) V c) (defs₀ (F := F)) Variants.none () Set.univ := fun t => by
  rw [bigSep_W1, bigSep_W1]
  exact body1_at V c t

end Cert.Kernel.Hand

end
-- ==== Proof.Kernel.Shares.lean ====
/-
  Region 1 reads the feature array through two windows. At the region's entry the core holds every unscoped
  buffer whole at the full share; the pipeline wants, per window, that window's array at the window's share. So the
  feature array's full share is cut into its left and right halves, one for each of the two windows that read it; the
  bias array and the result array go to their windows whole. At the exit the two halves (the array unchanged: both
  windows only read it) join to the full share again, and the result array comes back at what the write-backs left.
-/
import proofs.«169551_j3745211482437_1_alg».proof.Proof.Kernel.Reg1
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind region 1's four windows are three buffers. -/
theorem arrays1_image : (Finset.univ.image (Pipeline.arrRef spec1)) = ({main_v43, main_v44, main_v45} : Finset (Ref sig .tc)) := by decide

theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl

/-- The pipeline's arrays, window by window, each a whole buffer at its window's share. -/
theorem arrays1_windows (c : Dev nD) (G : (w : Fin cfg1.W) → Buf (Elt F) ((cfg1.win w).arr.view.loc (c.tc : Thread nD τ))) :
    ((dat1 V c).arrays G : sProp 𝕄) = bigSep Finset.univ fun w =>
      (((c.tc : Thread nD τ).loc (Pipeline.arrRef spec1 w)) ↦{(dat1 V c).share w} G w : sProp 𝕄) := by
  unfold Dat.arrays
  exact bigSep_congr fun w _ => by rw [(arr_whole1 w).set_eq_univ]

/-- The same with the four windows written out: the feature array twice, at the two halves of the full share. -/
theorem arrays1_eq (c : Dev nD) (G : (w : Fin cfg1.W) → Buf (Elt F) ((cfg1.win w).arr.view.loc (c.tc : Thread nD τ))) :
    ((dat1 V c).arrays G : sProp 𝕄) =
      iprop((((c.tc : Thread nD τ).loc main_v43) ↦{fullShare.left} G 0) ∗ (((c.tc : Thread nD τ).loc main_v43) ↦{fullShare.right} G 1)
        ∗ (((c.tc : Thread nD τ).loc main_v44) ↦{fullShare} G 2) ∗ (((c.tc : Thread nD τ).loc main_v45) ↦{fullShare} G 3)) := by
  rw [arrays1_windows]
  exact (bigSep_W1 _).trans rfl

/-- The buffers behind the arrays are unscoped. -/
theorem arrays1_unscoped : Finset.univ.image (Pipeline.arrRef spec1) ⊆ Finset.univ.filter fun b : Ref sig .tc => ¬ b.isScoped := fun b hb => by
  obtain ⟨w, -, rfl⟩ := Finset.mem_image.mp hb
  exact Finset.mem_filter.mpr ⟨Finset.mem_univ _, by simp [winFacts₀1.arr_unscoped w]⟩

/-- The core's unscoped buffers at contents `W`: the three buffers behind region 1's arrays, and the rest. -/
theorem unscopedBufs1_eq (c : Dev nD) (W : (b : Ref sig .tc) → Buf (Elt F) ((c : Thread nD τ).loc b)) :
    (unscopedBufs c W : sProp 𝕄) =
      iprop(((((c.tc : Thread nD τ).loc main_v43) ↦{fullShare} W main_v43) ∗ (((c.tc : Thread nD τ).loc main_v44) ↦{fullShare} W main_v44)
          ∗ (((c.tc : Thread nD τ).loc main_v45) ↦{fullShare} W main_v45))
        ∗ Pipeline.unscopedRest spec1 c W) := by
  classical
  unfold unscopedBufs Pipeline.unscopedRest
  rw [BI.bigSep_sdiff_split arrays1_unscoped, arrays1_image,
    bigSep_insert (by decide), bigSep_insert (by decide), BI.bigSep_singleton]
  rfl

/-- ENTRY: the core's unscoped buffers at `V` are region 1's arrays at the proof data's entry contents, the feature
    array's share halved between its two windows, and the unscoped rest. -/
theorem arrays1_split (c : Dev nD) :
    (unscopedBufs c (V c) : sProp 𝕄) ⊢ iprop((dat1 V c).arrays ((dat1 V c).arrAt · 0) ∗ Pipeline.unscopedRest spec1 c (V c)) := by
  rw [arrays1_eq, unscopedBufs1_eq]
  iintro ⟨⟨H43, H44, H45⟩, Hrest⟩
  isplitr [Hrest]
  swap; · iexact Hrest
  ihave Hs := (pointsTo_share (PosShare.mem_left_op_right fullShare)).1 $$ H43
  icases Hs with ⟨Hl, Hr⟩
  isplitl [Hl]; · iexact Hl
  isplitl [Hr]; · iexact Hr
  isplitl [H44]; · iexact H44
  iexact H45

/-- EXIT: region 1's arrays at what the pipeline leaves — the two input arrays as entered, the result array at its
    write-backs — and the unscoped rest are the core's unscoped buffers at any contents `V'` that hold the result array
    so and agree with `V` elsewhere. -/
theorem arrays1_join (c : Dev nD) (V' : (b : Ref sig .tc) → Buf (Elt F) ((c : Thread nD τ).loc b))
    (h45 : V' main_v45 = (dat1 V c).arrAt 3 cfg1.N) (hrest : ∀ b, b ≠ main_v45 → V' b = V c b) :
    iprop((dat1 V c).arrays ((dat1 V c).arrAt · cfg1.N) ∗ Pipeline.unscopedRest spec1 c (V c)) ⊢ (unscopedBufs c V' : sProp 𝕄) := by
  classical
  rw [arrays1_eq, unscopedBufs1_eq]
  have e0 : (dat1 V c).arrAt 0 cfg1.N = V c main_v43 := ((dat1 V c).arrAt_in 0 rfl _).trans (dat1_A V c 0)
  have e1 : (dat1 V c).arrAt 1 cfg1.N = V c main_v43 := ((dat1 V c).arrAt_in 1 rfl _).trans (dat1_A V c 1)
  have e2 : (dat1 V c).arrAt 2 cfg1.N = V c main_v44 := ((dat1 V c).arrAt_in 2 rfl _).trans (dat1_A V c 2)
  have hR : (Pipeline.unscopedRest spec1 c (V c) : sProp 𝕄) = Pipeline.unscopedRest spec1 c V' := by
    unfold Pipeline.unscopedRest
    exact bigSep_congr fun b hb => by
      rw [hrest b (fun e => (Finset.mem_sdiff.mp hb).2 (by rw [e, arrays1_image]; decide))]
  rw [e0, e1, e2, ← h45, hrest main_v43 (by decide), hrest main_v44 (by decide), hR]
  iintro ⟨⟨Hl, Hr, H44, H45⟩, Hrest⟩
  isplitr [Hrest]
  swap; · iexact Hrest
  isplitl [Hl Hr]
  · iapply (pointsTo_share (PosShare.mem_left_op_right fullShare)).2
    isplitl [Hl]; · iexact Hl
    iexact Hr
  isplitl [H44]; · iexact H44
  iexact H45

end Cert.Kernel.Hand

end
-- ==== Proof.Kernel.Run.lean ====
/-
  The whole run of the kernel's @main, at any instance `F`: the projection region, three stretches of host
  operations (the graph aggregation, computed from the projection's result and the edge list; the bias reshaped),
  and the outer-product region. The contents of the core's unscoped buffers are followed from boundary to boundary:
  as launched; after region 0, the projection's result array at what its eight write-backs leave; after each host
  stretch, what its operations compute from the contents before; after region 1, the result array at what its 128
  write-backs leave. Each region is entered from the buffers at the boundary's contents with the generator register
  and nothing owed, splits its windows' arrays out of them and puts them back at its exit; region 1's feature array
  is cut in two half shares for the two windows that read it. The run ends with every unscoped buffer at the last
  boundary's contents; no item writes an argument array, so each argument ends as launched, and the result array ends
  at region 1's write-backs.
-/
import proofs.«169551_j3745211482437_1_alg».proof.Proof.Kernel.Reg0
import proofs.«169551_j3745211482437_1_alg».proof.Proof.Kernel.Reg1
import proofs.«169551_j3745211482437_1_alg».proof.Proof.Kernel.Shares
import proofs.«169551_j3745211482437_1_alg».proof.Proof.Gen.Kernel.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev W0 : Dev nD → Valuation τ sig (Elt F) := fun c b => m (c, b)
abbrev U0 : (c : Dev nD) → (b : Ref sig .tc) → Buf (Elt F) ((c : Thread nD τ).loc b) := fun c b => W0 m c b
/-- After region 0: its arrays at what the pipeline leaves, every other buffer as launched. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem W1_exit (c : Dev nD) (w : Fin cfg0.W) : (dat0 (U0 m) c).arrAt w cfg0.N = U1 m c (Pipeline.arrRef spec0 w) :=
  (W1_arr m c w).symm
theorem W1_rest (c : Dev nD) : ∀ b, b ∉ Finset.univ.image (Pipeline.arrRef spec0) → U1 m c b = U0 m c b :=
  fun b hb => W1_of_ne m c b fun w e => hb (Finset.mem_image.mpr ⟨w, Finset.mem_univ _, e⟩)
/-- After each of the three host stretches. -/
abbrev W2 (c : Dev nD) : Valuation τ sig (Elt F) := StableHlo.after hostOps1 (W1 m c)
abbrev W3 (c : Dev nD) : Valuation τ sig (Elt F) := StableHlo.after hostOps1_1 (W2 m c)
abbrev W4 (c : Dev nD) : Valuation τ sig (Elt F) := StableHlo.after hostOps1_2 (W3 m c)
abbrev U4 : (c : Dev nD) → (b : Ref sig .tc) → Buf (Elt F) ((c : Thread nD τ).loc b) := fun c b => W4 m c b
/-- After region 1: the result array at what the pipeline leaves, every other buffer as before it. -/
def W5 (c : Dev nD) : Valuation τ sig (Elt F) :=
  Function.update (W4 m c) main_v45 ((dat1 (U4 m) c).arrAt 3 cfg1.N)
abbrev U5 : (c : Dev nD) → (b : Ref sig .tc) → Buf (Elt F) ((c : Thread nD τ).loc b) := fun c b => W5 m c b
theorem W5_result (c : Dev nD) : U5 m c main_v45 = (dat1 (U4 m) c).arrAt 3 cfg1.N := by
  show Function.update (W4 m c) main_v45 _ main_v45 = _
  exact Function.update_self ..
theorem W5_of_ne (c : Dev nD) (b : Ref sig .tc) (hb : b ≠ main_v45) : U5 m c b = U4 m c b := by
  show Function.update (W4 m c) main_v45 _ b = _
  exact Function.update_of_ne (StableHlo.devRef_ne_of_ne hb : (Proc.devRef .tc b : DevRef τ sig) ≠ Proc.devRef .tc main_v45) _ _

/-- A buffer that no host stretch writes and that is not the result array holds at the end what it held after
    region 0. -/
theorem W5_kept (c : Dev nD) (r : Ref sig .tc) (h1 : r ∉ hostOps1_W) (h2 : r ∉ hostOps1_1_W) (h3 : r ∉ hostOps1_2_W) (h5 : r ≠ main_v45) :
    W5 m c r = W1 m c r :=
  (W5_of_ne m c r h5).trans <| (StableHlo.after_of_writes_sub hostOps1_2 _ hostOps1_2_writes h3).trans <|
    (StableHlo.after_of_writes_sub hostOps1_1 _ hostOps1_1_writes h2).trans <|
      StableHlo.after_of_writes_sub hostOps1 _ hostOps1_writes h1

/-- The arguments end as launched: region 0 only reads the two it stages, nothing else touches any. -/
theorem W5_main_arg0 (c : Dev nD) : W5 m c main_arg0 = m ((c : Thread nD τ).loc main_arg0) :=
  (W5_kept m c main_arg0 (by decide) (by decide) (by decide) (by decide)).trans <|
    (W1_arr m c 0).trans (((dat0 (U0 m) c).arrAt_in 0 rfl _).trans (dat0_A (U0 m) c 0))
theorem W5_main_arg1 (c : Dev nD) : W5 m c main_arg1 = m ((c : Thread nD τ).loc main_arg1) :=
  (W5_kept m c main_arg1 (by decide) (by decide) (by decide) (by decide)).trans (W1_of_ne m c main_arg1 (by decide))
theorem W5_main_arg2 (c : Dev nD) : W5 m c main_arg2 = m ((c : Thread nD τ).loc main_arg2) :=
  (W5_kept m c main_arg2 (by decide) (by decide) (by decide) (by decide)).trans <|
    (W1_arr m c 1).trans (((dat0 (U0 m) c).arrAt_in 1 rfl _).trans (dat0_A (U0 m) c 1))
theorem W5_main_arg3 (c : Dev nD) : W5 m c main_arg3 = m ((c : Thread nD τ).loc main_arg3) :=
  (W5_kept m c main_arg3 (by decide) (by decide) (by decide) (by decide)).trans (W1_of_ne m c main_arg3 (by decide))

/-! ## The proof data of both pipelines and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U4 m) c
abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every item: the generator register at some state, and nothing owed. -/
abbrev riding (c : Dev nD) : sProp 𝕄 :=
  iprop((∃ r, prngReg c r) ∗ ∃ W, owes (c : Thread nD τ) (0 : CellTallies nD τ sig Unit) W)
/-- A host stretch as a segment over all the unscoped buffers. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register. -/
abbrev lastState (c : Dev nD) : sProp 𝕄 :=
  iprop(StableHlo.held (c : Thread nD τ) (Pipeline.ucRefs τ sig) (W5 m c) ∗ ∃ r, prngReg c r)

/-! ## The regions as segments -/

set_option backward.isDefEq.respectTransparency.types false in
/-- Region 0, entered from every unscoped buffer at `W0` and left at `W1`: its three arrays are distinct buffers, each
    held whole; the generator register goes into the invariant and comes back. -/
def reg0 : Pipeline.RegionSeg (pcfgs (F := F)) adm (pdats m) () defs₀ noVariants noLevels levelZero 0 where
  win := launch0.win.to₀
  block_pos := launch0.block_pos
  stage_whole := launch0.stage_whole
  K := PEmpty
  osem k := k.elim
  ho := Pipeline.OwnSemFacts.none _
  hbody c := (body0 (U0 m) c).loose
  hwaits := Pipeline.hwaits_of_owed_zero _ _ _ _ noLevels levelZero 0 fun _ _ => rfl
  pre c := iprop(StableHlo.held (c : Thread nD τ) (Pipeline.ucRefs τ sig) (W0 m c) ∗ riding c)
  post c := iprop(StableHlo.held (c : Thread nD τ) (Pipeline.ucRefs τ sig) (W1 m c) ∗ riding c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (W1_exit m c) (W1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from every unscoped buffer at `W4` and left at `W5`: the feature array's full share is halved
    between the two windows that read it and rejoined at the exit. -/
def reg1 : Pipeline.RegionSeg (pcfgs (F := F)) adm (pdats m) () defs₀ noVariants noLevels levelZero 1 where
  win := winFacts₀1
  block_pos := block_pos1
  stage_whole := stage_whole1
  K := PEmpty
  osem k := k.elim
  ho := Pipeline.OwnSemFacts.none _
  hbody c := (body1 (U4 m) c).loose
  hwaits := Pipeline.hwaits_of_owed_zero _ _ _ _ noLevels levelZero 1 fun _ _ => rfl
  pre c := iprop(StableHlo.held (c : Thread nD τ) (Pipeline.ucRefs τ sig) (W4 m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U4 m c)
  hentry c := by
    rw [Pipeline.ownSems0_none]
    have hsplit := arrays1_split (U4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_join (U4 m) c (U5 m c) (W5_result m c) (fun b hb => W5_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ noVariants noLevels levelZero) :=
  [ .region (reg0 m),
    .host (hostSeg hostOps1 hostOps1_sub hostOps1_fresh (W1 m)),
    .host (hostSeg hostOps1_1 hostOps1_1_sub hostOps1_1_fresh (W2 m)),
    .host (hostSeg hostOps1_2 hostOps1_2_sub hostOps1_2_fresh (W3 m)),
    .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ noVariants noLevels levelZero m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ riding c)) (Tₙ := lastState m)
    (hch := ⟨fun _ => .rfl, fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

/-- THE RUN WITH ITS RESULT: the result array ends at what region 1's write-backs leave, the arguments as launched. -/
theorem run_result : θ_run defs (onTc (τ := τ) (main (F := F))) ⟨m, fun _ => 0, ρ⟩ (fun r => ∀ c : Dev nD,
      r.2.mem ((c.tc : Thread nD τ).loc main_v45) = (dat1 (U4 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v45 (by decide))).trans (W5_result m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.Kernel.Hand

end
-- ==== Proof.KernelIdeal.Reg0.lean ====
/-
  Region 0 of the idealized kernel's @main: the row-tiled projection. The grid has 8 points; at point `t`
  the pipeline stages rows [2048·t, 2048·(t+1)) of the [16384, 64] operand, the whole [64, 64] weight (once), and
  an output buffer of the same row block. The body loads the three buffers whole, multiplies the row block by
  the weight on the matrix unit into a zero accumulator, and overwrites the output buffer with the product; what
  it read from the output buffer is not used. Stated here, at any instance `F` and for any contents `V` the
  core's buffers hold when the region is entered: the body's triple, the proof data of the pipeline (each input
  buffer keeps its block, the output buffer ends at the product of the two input blocks), and the obligation of
  the body at every grid point.
-/
import proofs.«169551_j3745211482437_1_alg».proof.Proof.Gen.KernelIdeal.Launch
import proofs.«169551_j3745211482437_1_alg».proof.Proof.Gen.KernelIdeal.Skeleton
import proofs.«169551_j3745211482437_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`: the entries of the window's array (as the region finds it)
    that the window's index map selects there. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole [2048, 64] buffer as one rectangle, and the whole [64, 64] one. -/
abbrev rowsRect : Rect S2048x64 := Rect.unit (s := S2048x64) ![0, 0] S2048x64.size inb_S2048x64_S2048x64_0_0
abbrev wRect : Rect S64x64 := Rect.unit (s := S64x64) ![0, 0] S64x64.size inb_S64x64_S64x64_0_0

/-- What the body leaves in the output buffer: its one store, of the product of the row block and the weight. -/
def linOut (x : Vec F S2048x64 .f32) (w : Vec F S64x64 .f32) : Vec F S2048x64 .f32 :=
  View.canon [⟨rowsRect, k0_pay1 (View.ld x rowsRect) (View.ld w wRect)⟩]

/-- The one store covers the output buffer. -/
theorem linCover (p : Vec F S2048x64 .f32) (y : S2048x64.Idx) :
    ∃ pc ∈ ([⟨rowsRect, p⟩] : List (View.Piece (Elt F) S2048x64 .f32)), y ∈ pc.1.set :=
  View.cover_of_tiled [⟨rowsRect, p⟩] S2048x64.size (by rfl) y

/-! ## The body's triple -/

set_option maxHeartbeats 1000000 in
/-- The body on whole buffers — the two inputs at `x` and `w`, the output at anything — runs to its continuation with
    the inputs as they were and the output at `linOut x w`. -/
theorem linBody (c : Dev nD) (E : Set ℕ) (i : grid0.Coords)
    (arg1 : Memref sig .tc .vmem S2048x64 .f32) (harg1 : arg1.IsWhole) (arg2 : Memref sig .tc .vmem S64x64 .f32) (harg2 : arg2.IsWhole)
    (arg3 : Memref sig .tc .vmem S2048x64 .f32) (harg3 : arg3.IsWhole)
    (x : Vec F S2048x64 .f32) (w : Vec F S64x64 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (linOut x w)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (linCover _)

/-! ## The pipeline's proof data -/

/-- Pipeline 0's proof data on core `c`: the arrays as the region finds them; after the body at point `t` each input
    buffer at its block and the output buffer at `linOut` of the two input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => linOut (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = linOut (blk0 V c 0 t) (blk0 V c 1 t) := by dsimp only [dat0]

/-- An input buffer holds its window's block at every point, fetched there or not: where it is not fetched, the
    index map has not moved since the point that fetched it and the body left the block in place. -/
theorem dat0_before_0 (c : Dev nD) (t : Fin cfg0.N) (d) : (dat0 V c).before 0 t d = blk0 V c 0 t :=
  ((dat0 V c).before_in_eq_fetched 0 rfl (fun _ => rfl) (fun _ _ _ => rfl)
      (fun t => by rw [dat0_after_0]; unfold Dat.blockOf blk0; rw [dat0_A]; try rfl) t d).trans
    (by unfold Dat.fetched Dat.blockOf blk0; rw [dat0_A]; try rfl)
theorem dat0_before_1 (c : Dev nD) (t : Fin cfg0.N) (d) : (dat0 V c).before 1 t d = blk0 V c 1 t :=
  ((dat0 V c).before_in_eq_fetched 1 rfl (fun _ => rfl) (fun _ _ _ => rfl)
      (fun t => by rw [dat0_after_1]; unfold Dat.blockOf blk0; rw [dat0_A]; try rfl) t d).trans
    (by unfold Dat.fetched Dat.blockOf blk0; rw [dat0_A]; try rfl)

/-! ## The body obligation -/

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_0, dat0_before_1]
  rw [show (dat0 V c).Φ t.succ = (dat0 V c).Φ t.castSucc from rfl,
    show (dat0 V c).owesAt () t.succ = (dat0 V c).owesAt () t.castSucc from rfl,
    dat0_after_0, dat0_after_1, dat0_after_2]
  iintro ⟨HΦ, Ho, ⟨%d0, H0⟩, ⟨%d1, H1⟩, ⟨%d2, H2⟩⟩
  iapply (linBody c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every point. -/
theorem body0 (c : Dev nD) : BodyObligation (dat0 (F := F) V c) (defs₀ (F := F)) Variants.none () Set.univ := fun t => by
  rw [bigSep_W0, bigSep_W0]
  exact body0_at V c t

end Cert.KernelIdeal.Hand

end
-- ==== Proof.KernelIdeal.Reg1.lean ====
/-
  Region 1 of the idealized kernel's @main: the tiled product of the node features with themselves. The grid is
  8 × 16; at point (a, b) the pipeline stages rows [2048·a, 2048·(a+1)) of the [16384, 64] feature array through
  one window and rows [1024·b, 1024·(b+1)) of THE SAME array through a second window, the [1, 64] bias (once), and a
  [2048, 1024] output buffer for block (a, b) of the [16384, 16384] result. The body loads the four buffers
  whole, adds the bias to each row block, clamps at zero from below, multiplies the first block by the transpose
  of the second on the matrix unit into a zero accumulator, and overwrites the output buffer; what it read from
  the output buffer is not used. Because two input windows read one array, the core holds that array at the left
  half of the full share for the first window and at the right half for the second. Stated here, at any instance
  `F` and for any contents `V` the core's buffers hold when the region is entered: the body's triple, the
  pipeline's proof data, and the obligation of the body at every grid point.
-/
import proofs.«169551_j3745211482437_1_alg».proof.Proof.Gen.KernelIdeal.Launch
import proofs.«169551_j3745211482437_1_alg».proof.Proof.Gen.KernelIdeal.Skeleton
import proofs.«169551_j3745211482437_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each buffer as one rectangle. -/
abbrev biasRect : Rect S1x64 := Rect.unit (s := S1x64) ![0, 0] S1x64.size inb_S1x64_S1x64_0_0
abbrev rowRect : Rect S2048x64 := Rect.unit (s := S2048x64) ![0, 0] S2048x64.size inb_S2048x64_S2048x64_0_0
abbrev colRect : Rect S1024x64 := Rect.unit (s := S1024x64) ![0, 0] S1024x64.size inb_S1024x64_S1024x64_0_0
abbrev tileRect : Rect S2048x1024 := Rect.unit (s := S2048x1024) ![0, 0] S2048x1024.size inb_S2048x1024_S2048x1024_0_0

/-- What the body leaves in the output buffer: its one store, of the product of the two clamped, biased blocks. -/
def outerOut (hr : Vec F S2048x64 .f32) (hc : Vec F S1024x64 .f32) (b : Vec F S1x64 .f32) : Vec F S2048x1024 .f32 :=
  View.canon [⟨tileRect, k1_pay1 (View.ld b biasRect) (View.ld hr rowRect) (View.ld hc colRect)⟩]

/-- The one store covers the output buffer. -/
theorem outerCover (p : Vec F S2048x1024 .f32) (y : S2048x1024.Idx) :
    ∃ pc ∈ ([⟨tileRect, p⟩] : List (View.Piece (Elt F) S2048x1024 .f32)), y ∈ pc.1.set :=
  View.cover_of_tiled [⟨tileRect, p⟩] S2048x1024.size (by rfl) y

/-! ## The body's triple -/

set_option maxHeartbeats 1000000 in
/-- The body on whole staging buffers — the row block, the column block and the bias at their contents, the output at
    anything — runs to its continuation with the inputs as they were and the output at `outerOut hr hc b`. -/
theorem outerBody (c : Dev nD) (E : Set ℕ) (i : grid1.Coords)
    (arg2 : Memref sig .tc .vmem S2048x64 .f32) (harg2 : arg2.IsWhole) (arg3 : Memref sig .tc .vmem S1024x64 .f32) (harg3 : arg3.IsWhole)
    (arg4 : Memref sig .tc .vmem S1x64 .f32) (harg4 : arg4.IsWhole) (arg5 : Memref sig .tc .vmem S2048x1024 .f32) (harg5 : arg5.IsWhole)
    (hr : Vec F S2048x64 .f32) (hc : Vec F S1024x64 .f32) (b : Vec F S1x64 .f32) (K : PUnit → sProp 𝕄) :
    iprop(owns (c : Thread nD τ) arg2 fullShare hr ∗ owns (c : Thread nD τ) arg3 fullShare hc ∗ owns (c : Thread nD τ) arg4 fullShare b
        ∗ (∃ d, owns (c : Thread nD τ) arg5 fullShare d)
        ∗ (iprop(owns (c : Thread nD τ) arg2 fullShare hr ∗ owns (c : Thread nD τ) arg3 fullShare hc ∗ owns (c : Thread nD τ) arg4 fullShare b
            ∗ owns (c : Thread nD τ) arg5 fullShare (outerOut hr hc b)) -∗ K ⟨⟩))
      ⊢ wp frame (wpE (defs₀ (F := F)) Variants.none c none) E (cc1__outer_kernel i arg2 harg2 arg3 harg3 arg4 harg4 arg5 harg5) K := by
  simp only [cc1__outer_kernel_eq_skeleton]; unfold cc1__outer_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outerCover _)

/-! ## The pipeline's proof data -/

/-- Pipeline 1's proof data on core `c`: the arrays as the region finds them; after the body at point `t` each input
    buffer at its block and the output buffer at `outerOut` of the three input blocks; the invariant is the scoped rest
    and the generator register, untouched; nothing owed. The feature array is held at the left half of the full share
    for the row window and at the right half for the column window; the bias at the full share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outerOut (blk1 V c 0 t) (blk1 V c 1 t) (blk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) :
    (dat1 V c).after 3 t = outerOut (blk1 V c 0 t) (blk1 V c 1 t) (blk1 V c 2 t) := by dsimp only [dat1]

/-- An input buffer holds its window's block at every point, fetched there or not: where it is not fetched, the
    index map has not moved since the point that fetched it and the body left the block in place. -/
theorem dat1_before_0 (c : Dev nD) (t : Fin cfg1.N) (d) : (dat1 V c).before 0 t d = blk1 V c 0 t :=
  ((dat1 V c).before_in_eq_fetched 0 rfl (fun _ => rfl) (fun _ _ _ => rfl)
      (fun t => by rw [dat1_after_0]; unfold Dat.blockOf blk1; rw [dat1_A]; try rfl) t d).trans
    (by unfold Dat.fetched Dat.blockOf blk1; rw [dat1_A]; try rfl)
theorem dat1_before_1 (c : Dev nD) (t : Fin cfg1.N) (d) : (dat1 V c).before 1 t d = blk1 V c 1 t :=
  ((dat1 V c).before_in_eq_fetched 1 rfl (fun _ => rfl) (fun _ _ _ => rfl)
      (fun t => by rw [dat1_after_1]; unfold Dat.blockOf blk1; rw [dat1_A]; try rfl) t d).trans
    (by unfold Dat.fetched Dat.blockOf blk1; rw [dat1_A]; try rfl)
theorem dat1_before_2 (c : Dev nD) (t : Fin cfg1.N) (d) : (dat1 V c).before 2 t d = blk1 V c 2 t :=
  ((dat1 V c).before_in_eq_fetched 2 rfl (fun _ => rfl) (fun _ _ _ => rfl)
      (fun t => by rw [dat1_after_2]; unfold Dat.blockOf blk1; rw [dat1_A]; try rfl) t d).trans
    (by unfold Dat.fetched Dat.blockOf blk1; rw [dat1_A]; try rfl)

/-! ## The body obligation -/

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1, dat1_before_2]
  rw [show (dat1 V c).Φ t.succ = (dat1 V c).Φ t.castSucc from rfl,
    show (dat1 V c).owesAt () t.succ = (dat1 V c).owesAt () t.castSucc from rfl,
    dat1_after_0, dat1_after_1, dat1_after_2, dat1_after_3]
  iintro ⟨HΦ, Ho, ⟨%d0, H0⟩, ⟨%d1, H1⟩, ⟨%d2, H2⟩, ⟨%d3, H3⟩⟩
  iapply (outerBody c Set.univ (grid1.coords t) _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem body1 (c : Dev nD) : BodyObligation (dat1 (F := F) V c) (defs₀ (F := F)) Variants.none () Set.univ := fun t => by
  rw [bigSep_W1, bigSep_W1]
  exact body1_at V c t

end Cert.KernelIdeal.Hand

end
-- ==== Proof.KernelIdeal.Shares.lean ====
/-
  Region 1 reads the feature array through two windows. At the region's entry the core holds every unscoped
  buffer whole at the full share; the pipeline wants, per window, that window's array at the window's share. So the
  feature array's full share is cut into its left and right halves, one for each of the two windows that read it; the
  bias array and the result array go to their windows whole. At the exit the two halves (the array unchanged: both
  windows only read it) join to the full share again, and the result array comes back at what the write-backs left.
-/
import proofs.«169551_j3745211482437_1_alg».proof.Proof.KernelIdeal.Reg1
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind region 1's four windows are three buffers. -/
theorem arrays1_image : (Finset.univ.image (Pipeline.arrRef spec1)) = ({main_v43, main_v44, main_v45} : Finset (Ref sig .tc)) := by decide

theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl

/-- The pipeline's arrays, window by window, each a whole buffer at its window's share. -/
theorem arrays1_windows (c : Dev nD) (G : (w : Fin cfg1.W) → Buf (Elt F) ((cfg1.win w).arr.view.loc (c.tc : Thread nD τ))) :
    ((dat1 V c).arrays G : sProp 𝕄) = bigSep Finset.univ fun w =>
      (((c.tc : Thread nD τ).loc (Pipeline.arrRef spec1 w)) ↦{(dat1 V c).share w} G w : sProp 𝕄) := by
  unfold Dat.arrays
  exact bigSep_congr fun w _ => by rw [(arr_whole1 w).set_eq_univ]

/-- The same with the four windows written out: the feature array twice, at the two halves of the full share. -/
theorem arrays1_eq (c : Dev nD) (G : (w : Fin cfg1.W) → Buf (Elt F) ((cfg1.win w).arr.view.loc (c.tc : Thread nD τ))) :
    ((dat1 V c).arrays G : sProp 𝕄) =
      iprop((((c.tc : Thread nD τ).loc main_v43) ↦{fullShare.left} G 0) ∗ (((c.tc : Thread nD τ).loc main_v43) ↦{fullShare.right} G 1)
        ∗ (((c.tc : Thread nD τ).loc main_v44) ↦{fullShare} G 2) ∗ (((c.tc : Thread nD τ).loc main_v45) ↦{fullShare} G 3)) := by
  rw [arrays1_windows]
  exact (bigSep_W1 _).trans rfl

/-- The buffers behind the arrays are unscoped. -/
theorem arrays1_unscoped : Finset.univ.image (Pipeline.arrRef spec1) ⊆ Finset.univ.filter fun b : Ref sig .tc => ¬ b.isScoped := fun b hb => by
  obtain ⟨w, -, rfl⟩ := Finset.mem_image.mp hb
  exact Finset.mem_filter.mpr ⟨Finset.mem_univ _, by simp [winFacts₀1.arr_unscoped w]⟩

/-- The core's unscoped buffers at contents `W`: the three buffers behind region 1's arrays, and the rest. -/
theorem unscopedBufs1_eq (c : Dev nD) (W : (b : Ref sig .tc) → Buf (Elt F) ((c : Thread nD τ).loc b)) :
    (unscopedBufs c W : sProp 𝕄) =
      iprop(((((c.tc : Thread nD τ).loc main_v43) ↦{fullShare} W main_v43) ∗ (((c.tc : Thread nD τ).loc main_v44) ↦{fullShare} W main_v44)
          ∗ (((c.tc : Thread nD τ).loc main_v45) ↦{fullShare} W main_v45))
        ∗ Pipeline.unscopedRest spec1 c W) := by
  classical
  unfold unscopedBufs Pipeline.unscopedRest
  rw [BI.bigSep_sdiff_split arrays1_unscoped, arrays1_image,
    bigSep_insert (by decide), bigSep_insert (by decide), BI.bigSep_singleton]
  rfl

/-- ENTRY: the core's unscoped buffers at `V` are region 1's arrays at the proof data's entry contents, the feature
    array's share halved between its two windows, and the unscoped rest. -/
theorem arrays1_split (c : Dev nD) :
    (unscopedBufs c (V c) : sProp 𝕄) ⊢ iprop((dat1 V c).arrays ((dat1 V c).arrAt · 0) ∗ Pipeline.unscopedRest spec1 c (V c)) := by
  rw [arrays1_eq, unscopedBufs1_eq]
  iintro ⟨⟨H43, H44, H45⟩, Hrest⟩
  isplitr [Hrest]
  swap; · iexact Hrest
  ihave Hs := (pointsTo_share (PosShare.mem_left_op_right fullShare)).1 $$ H43
  icases Hs with ⟨Hl, Hr⟩
  isplitl [Hl]; · iexact Hl
  isplitl [Hr]; · iexact Hr
  isplitl [H44]; · iexact H44
  iexact H45

/-- EXIT: region 1's arrays at what the pipeline leaves — the two input arrays as entered, the result array at its
    write-backs — and the unscoped rest are the core's unscoped buffers at any contents `V'` that hold the result array
    so and agree with `V` elsewhere. -/
theorem arrays1_join (c : Dev nD) (V' : (b : Ref sig .tc) → Buf (Elt F) ((c : Thread nD τ).loc b))
    (h45 : V' main_v45 = (dat1 V c).arrAt 3 cfg1.N) (hrest : ∀ b, b ≠ main_v45 → V' b = V c b) :
    iprop((dat1 V c).arrays ((dat1 V c).arrAt · cfg1.N) ∗ Pipeline.unscopedRest spec1 c (V c)) ⊢ (unscopedBufs c V' : sProp 𝕄) := by
  classical
  rw [arrays1_eq, unscopedBufs1_eq]
  have e0 : (dat1 V c).arrAt 0 cfg1.N = V c main_v43 := ((dat1 V c).arrAt_in 0 rfl _).trans (dat1_A V c 0)
  have e1 : (dat1 V c).arrAt 1 cfg1.N = V c main_v43 := ((dat1 V c).arrAt_in 1 rfl _).trans (dat1_A V c 1)
  have e2 : (dat1 V c).arrAt 2 cfg1.N = V c main_v44 := ((dat1 V c).arrAt_in 2 rfl _).trans (dat1_A V c 2)
  have hR : (Pipeline.unscopedRest spec1 c (V c) : sProp 𝕄) = Pipeline.unscopedRest spec1 c V' := by
    unfold Pipeline.unscopedRest
    exact bigSep_congr fun b hb => by
      rw [hrest b (fun e => (Finset.mem_sdiff.mp hb).2 (by rw [e, arrays1_image]; decide))]
  rw [e0, e1, e2, ← h45, hrest main_v43 (by decide), hrest main_v44 (by decide), hR]
  iintro ⟨⟨Hl, Hr, H44, H45⟩, Hrest⟩
  isplitr [Hrest]
  swap; · iexact Hrest
  isplitl [Hl Hr]
  · iapply (pointsTo_share (PosShare.mem_left_op_right fullShare)).2
    isplitl [Hl]; · iexact Hl
    iexact Hr
  isplitl [H44]; · iexact H44
  iexact H45

end Cert.KernelIdeal.Hand

end
-- ==== Proof.KernelIdeal.Run.lean ====
/-
  The whole run of the idealized kernel's @main, at any instance `F`: the projection region, three stretches of host
  operations (the graph aggregation, computed from the projection's result and the edge list; the bias reshaped),
  and the outer-product region. The contents of the core's unscoped buffers are followed from boundary to boundary:
  as launched; after region 0, the projection's result array at what its eight write-backs leave; after each host
  stretch, what its operations compute from the contents before; after region 1, the result array at what its 128
  write-backs leave. Each region is entered from the buffers at the boundary's contents with the generator register
  and nothing owed, splits its windows' arrays out of them and puts them back at its exit; region 1's feature array
  is cut in two half shares for the two windows that read it. The run ends with every unscoped buffer at the last
  boundary's contents; no item writes an argument array, so each argument ends as launched, and the result array ends
  at region 1's write-backs.
-/
import proofs.«169551_j3745211482437_1_alg».proof.Proof.KernelIdeal.Reg0
import proofs.«169551_j3745211482437_1_alg».proof.Proof.KernelIdeal.Reg1
import proofs.«169551_j3745211482437_1_alg».proof.Proof.KernelIdeal.Shares
import proofs.«169551_j3745211482437_1_alg».proof.Proof.Gen.KernelIdeal.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev W0 : Dev nD → Valuation τ sig (Elt F) := fun c b => m (c, b)
abbrev U0 : (c : Dev nD) → (b : Ref sig .tc) → Buf (Elt F) ((c : Thread nD τ).loc b) := fun c b => W0 m c b
/-- After region 0: its arrays at what the pipeline leaves, every other buffer as launched. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem W1_exit (c : Dev nD) (w : Fin cfg0.W) : (dat0 (U0 m) c).arrAt w cfg0.N = U1 m c (Pipeline.arrRef spec0 w) :=
  (W1_arr m c w).symm
theorem W1_rest (c : Dev nD) : ∀ b, b ∉ Finset.univ.image (Pipeline.arrRef spec0) → U1 m c b = U0 m c b :=
  fun b hb => W1_of_ne m c b fun w e => hb (Finset.mem_image.mpr ⟨w, Finset.mem_univ _, e⟩)
/-- After each of the three host stretches. -/
abbrev W2 (c : Dev nD) : Valuation τ sig (Elt F) := StableHlo.after hostOps1 (W1 m c)
abbrev W3 (c : Dev nD) : Valuation τ sig (Elt F) := StableHlo.after hostOps1_1 (W2 m c)
abbrev W4 (c : Dev nD) : Valuation τ sig (Elt F) := StableHlo.after hostOps1_2 (W3 m c)
abbrev U4 : (c : Dev nD) → (b : Ref sig .tc) → Buf (Elt F) ((c : Thread nD τ).loc b) := fun c b => W4 m c b
/-- After region 1: the result array at what the pipeline leaves, every other buffer as before it. -/
def W5 (c : Dev nD) : Valuation τ sig (Elt F) :=
  Function.update (W4 m c) main_v45 ((dat1 (U4 m) c).arrAt 3 cfg1.N)
abbrev U5 : (c : Dev nD) → (b : Ref sig .tc) → Buf (Elt F) ((c : Thread nD τ).loc b) := fun c b => W5 m c b
theorem W5_result (c : Dev nD) : U5 m c main_v45 = (dat1 (U4 m) c).arrAt 3 cfg1.N := by
  show Function.update (W4 m c) main_v45 _ main_v45 = _
  exact Function.update_self ..
theorem W5_of_ne (c : Dev nD) (b : Ref sig .tc) (hb : b ≠ main_v45) : U5 m c b = U4 m c b := by
  show Function.update (W4 m c) main_v45 _ b = _
  exact Function.update_of_ne (StableHlo.devRef_ne_of_ne hb : (Proc.devRef .tc b : DevRef τ sig) ≠ Proc.devRef .tc main_v45) _ _

/-- A buffer that no host stretch writes and that is not the result array holds at the end what it held after
    region 0. -/
theorem W5_kept (c : Dev nD) (r : Ref sig .tc) (h1 : r ∉ hostOps1_W) (h2 : r ∉ hostOps1_1_W) (h3 : r ∉ hostOps1_2_W) (h5 : r ≠ main_v45) :
    W5 m c r = W1 m c r :=
  (W5_of_ne m c r h5).trans <| (StableHlo.after_of_writes_sub hostOps1_2 _ hostOps1_2_writes h3).trans <|
    (StableHlo.after_of_writes_sub hostOps1_1 _ hostOps1_1_writes h2).trans <|
      StableHlo.after_of_writes_sub hostOps1 _ hostOps1_writes h1

/-- The arguments end as launched: region 0 only reads the two it stages, nothing else touches any. -/
theorem W5_main_arg0 (c : Dev nD) : W5 m c main_arg0 = m ((c : Thread nD τ).loc main_arg0) :=
  (W5_kept m c main_arg0 (by decide) (by decide) (by decide) (by decide)).trans <|
    (W1_arr m c 0).trans (((dat0 (U0 m) c).arrAt_in 0 rfl _).trans (dat0_A (U0 m) c 0))
theorem W5_main_arg1 (c : Dev nD) : W5 m c main_arg1 = m ((c : Thread nD τ).loc main_arg1) :=
  (W5_kept m c main_arg1 (by decide) (by decide) (by decide) (by decide)).trans (W1_of_ne m c main_arg1 (by decide))
theorem W5_main_arg2 (c : Dev nD) : W5 m c main_arg2 = m ((c : Thread nD τ).loc main_arg2) :=
  (W5_kept m c main_arg2 (by decide) (by decide) (by decide) (by decide)).trans <|
    (W1_arr m c 1).trans (((dat0 (U0 m) c).arrAt_in 1 rfl _).trans (dat0_A (U0 m) c 1))
theorem W5_main_arg3 (c : Dev nD) : W5 m c main_arg3 = m ((c : Thread nD τ).loc main_arg3) :=
  (W5_kept m c main_arg3 (by decide) (by decide) (by decide) (by decide)).trans (W1_of_ne m c main_arg3 (by decide))

/-! ## The proof data of both pipelines and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U4 m) c
abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every item: the generator register at some state, and nothing owed. -/
abbrev riding (c : Dev nD) : sProp 𝕄 :=
  iprop((∃ r, prngReg c r) ∗ ∃ W, owes (c : Thread nD τ) (0 : CellTallies nD τ sig Unit) W)
/-- A host stretch as a segment over all the unscoped buffers. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register. -/
abbrev lastState (c : Dev nD) : sProp 𝕄 :=
  iprop(StableHlo.held (c : Thread nD τ) (Pipeline.ucRefs τ sig) (W5 m c) ∗ ∃ r, prngReg c r)

/-! ## The regions as segments -/

set_option backward.isDefEq.respectTransparency.types false in
/-- Region 0, entered from every unscoped buffer at `W0` and left at `W1`: its three arrays are distinct buffers, each
    held whole; the generator register goes into the invariant and comes back. -/
def reg0 : Pipeline.RegionSeg (pcfgs (F := F)) adm (pdats m) () defs₀ noVariants noLevels levelZero 0 where
  win := launch0.win.to₀
  block_pos := launch0.block_pos
  stage_whole := launch0.stage_whole
  K := PEmpty
  osem k := k.elim
  ho := Pipeline.OwnSemFacts.none _
  hbody c := (body0 (U0 m) c).loose
  hwaits := Pipeline.hwaits_of_owed_zero _ _ _ _ noLevels levelZero 0 fun _ _ => rfl
  pre c := iprop(StableHlo.held (c : Thread nD τ) (Pipeline.ucRefs τ sig) (W0 m c) ∗ riding c)
  post c := iprop(StableHlo.held (c : Thread nD τ) (Pipeline.ucRefs τ sig) (W1 m c) ∗ riding c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (W1_exit m c) (W1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from every unscoped buffer at `W4` and left at `W5`: the feature array's full share is halved
    between the two windows that read it and rejoined at the exit. -/
def reg1 : Pipeline.RegionSeg (pcfgs (F := F)) adm (pdats m) () defs₀ noVariants noLevels levelZero 1 where
  win := winFacts₀1
  block_pos := block_pos1
  stage_whole := stage_whole1
  K := PEmpty
  osem k := k.elim
  ho := Pipeline.OwnSemFacts.none _
  hbody c := (body1 (U4 m) c).loose
  hwaits := Pipeline.hwaits_of_owed_zero _ _ _ _ noLevels levelZero 1 fun _ _ => rfl
  pre c := iprop(StableHlo.held (c : Thread nD τ) (Pipeline.ucRefs τ sig) (W4 m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U4 m c)
  hentry c := by
    rw [Pipeline.ownSems0_none]
    have hsplit := arrays1_split (U4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_join (U4 m) c (U5 m c) (W5_result m c) (fun b hb => W5_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ noVariants noLevels levelZero) :=
  [ .region (reg0 m),
    .host (hostSeg hostOps1 hostOps1_sub hostOps1_fresh (W1 m)),
    .host (hostSeg hostOps1_1 hostOps1_1_sub hostOps1_1_fresh (W2 m)),
    .host (hostSeg hostOps1_2 hostOps1_2_sub hostOps1_2_fresh (W3 m)),
    .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ noVariants noLevels levelZero m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ riding c)) (Tₙ := lastState m)
    (hch := ⟨fun _ => .rfl, fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

/-- THE RUN WITH ITS RESULT: the result array ends at what region 1's write-backs leave, the arguments as launched. -/
theorem run_result : θ_run defs (onTc (τ := τ) (main (F := F))) ⟨m, fun _ => 0, ρ⟩ (fun r => ∀ c : Dev nD,
      r.2.mem ((c.tc : Thread nD τ).loc main_v45) = (dat1 (U4 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v45 (by decide))).trans (W5_result m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.KernelIdeal.Hand

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.KernelIdeal.LinValue.lean ====
/-
  The value of the row-tiled projection on the extended reals. At grid point `t` the body leaves in the output
  buffer the product of rows [2048·t, 2048·(t+1)) of the [16384, 64] operand with the whole [64, 64] weight: the
  format changes are the identity there, and the product into the zero accumulator is the plain sum over the
  contraction coordinate. The eight output blocks tile the [16384, 64] result, so after the run its entry (p, q) is
  ∑ k, x (p, k) · W (k, q).
-/
import proofs.«169551_j3745211482437_1_alg».proof.Proof.KernelIdeal.Reg0
import proofs.«169551_j3745211482437_1_alg».proof.Proof.LibMatmulPlain
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-! ## The arrays -/

/-- The [16384, 64] operand and the [64, 64] weight as the region finds them, and the result after the run. -/
abbrev xArr (c : Dev nD) : Vec Ideal S16384x64 .f32 := V c main_arg0
abbrev wArr (c : Dev nD) : Vec Ideal S64x64 .f32 := V c main_arg2
abbrev linArr (c : Dev nD) : Vec Ideal S16384x64 .f32 := (dat0 (F := Ideal) V c).arrAt 2 cfg0.N

/-! ## One block's product, entry by entry -/

theorem zeroOff : (![0, 0] : Fin 2 → Nat) = fun _ => 0 := funext fun a => by fin_cases a <;> rfl

/-- The product's dimension numbers contract the rows' columns with the weight's rows. -/
theorem linPlain : Cert.Gcn.IsPlain dot_S2048x64_S64x64_S2048x64_1_0_0_1_n_n := ⟨rfl, rfl, rfl, rfl, rfl, rfl⟩

/-- Entry (r, q) of what the body leaves is the sum over the contraction coordinate. -/
theorem linOut_apply (x : Vec Ideal S2048x64 .f32) (w : Vec Ideal S64x64 .f32) (r : Fin 2048) (q : Fin 64) :
    linOut x w (ix2 r q) = ∑ k : Fin 64, x (ix2 r k) * w (ix2 k q) := by
  unfold linOut
  rw [View.canon_unit_zero zeroOff]
  simp only [View.ld_unit_zero (S := S2048x64) zeroOff, View.ld_unit_zero (S := S64x64) zeroOff]
  unfold k0_pay1
  exact Cert.Gcn.matmul_plain_apply _ linPlain none _ _ r q

/-- At any index of the block. -/
theorem linOut_idx (x : Vec Ideal S2048x64 .f32) (w : Vec Ideal S64x64 .f32) (j : S2048x64.Idx) :
    linOut x w j = ∑ k : Fin 64, x (ix2 (j 0) k) * w (ix2 k (j 1)) :=
  (congrArg (linOut x w) (eq_ix2 j)).trans (linOut_apply x w (j 0) (j 1))

/-! ## The result as one function of the two arrays -/

/-- Entry `i` of the product of the whole operand with the weight. -/
def linG (c : Dev nD) : Vec Ideal S16384x64 .f32 :=
  fun i => ∑ k : Fin 64, xArr V c (ix2 (i 0) k) * wArr V c (ix2 k (i 1))

/-- The index maps over the grid: the operand's row block moves with the result's, on column block 0; the weight's
    block is always (0, 0); the result's row block index stays below 8. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every row block of the result is some point's. -/
theorem idx_onto : ∀ q0 : Fin 8, ∃ t : Fin cfg0.N, win0_2.index t = ![q0.val, 0] :=
  (by decide +kernel : ∀ q0 : Fin 8, ∃ t : Fin grid0.N, win0_2.index t = ![q0.val, 0])

/-- What point `t` writes back is block `t` of the product of the two arrays. -/
theorem flushed_eq (c : Dev nD) (t : Fin cfg0.N) :
    (dat0 (F := Ideal) V c).flushed 2 t = ((cfg0.win 2).blk t).view.read (Elt Ideal) (linG V c) := by
  show (cfg0.win 2).cut (grid0.coords t) ((dat0 (F := Ideal) V c).after 2 t) = _
  rw [dat0_after_2]
  obtain ⟨e0, e1, e2, e3, e4, e5⟩ := idx_facts t
  funext j
  refine (linOut_idx _ _ _).trans ?_
  show _ = linG V c (((cfg0.win 2).blk t).view.emb j)
  unfold linG
  refine Finset.sum_congr rfl fun k _ => ?_
  have hj0 : (j 0).val < 2048 := (j 0).isLt
  have hj1 : (j 1).val < 64 := (j 1).isLt
  have h0 : blk0 V c 0 t (ix2 ((cfg0.win 2).xinj (grid0.coords t) j 0) k)
      = xArr V c (ix2 (((cfg0.win 2).blk t).view.emb j 0) k) := by
    show V c main_arg0 (((cfg0.win 0).blk t).view.emb (ix2 ((cfg0.win 2).xinj (grid0.coords t) j 0) k)) = _
    refine congrArg (V c main_arg0) (Shape.idx_ext₂ ?_ ?_)
    · show win0_0.index t (0 : Fin 2) * 2048 + 1 * (j 0).val = win0_2.index t (0 : Fin 2) * 2048 + 1 * (j 0).val
      omega
    · show win0_0.index t (1 : Fin 2) * 64 + 1 * k.val = k.val
      omega
  have h1 : blk0 V c 1 t (ix2 k ((cfg0.win 2).xinj (grid0.coords t) j 1))
      = wArr V c (ix2 k (((cfg0.win 2).blk t).view.emb j 1)) := by
    show V c main_arg2 (((cfg0.win 1).blk t).view.emb (ix2 k ((cfg0.win 2).xinj (grid0.coords t) j 1))) = _
    refine congrArg (V c main_arg2) (Shape.idx_ext₂ ?_ ?_)
    · show win0_1.index t (0 : Fin 2) * 64 + 1 * k.val = k.val
      omega
    · show win0_1.index t (1 : Fin 2) * 64 + 1 * (j 1).val = win0_2.index t (1 : Fin 2) * 64 + 1 * (j 1).val
      omega
  exact congrArg₂ (· * ·) h0 h1

/-! ## The blocks tile the result -/

/-- An index of the result is in point `t`'s block iff each coordinate is in the block's range on its axis. -/
theorem mem_blk (t : Fin cfg0.N) (i : S16384x64.Idx) :
    i ∈ ((cfg0.win 2).blk t).view.set ↔ ∀ a : Fin 2, win0_2.index t a * S2048x64.size a ≤ (i a).val
      ∧ (i a).val < win0_2.index t a * S2048x64.size a + S2048x64.size a := by
  show i ∈ ((View.whole main_v0).slice (win0_2.rect t)).set ↔ _
  rw [View.set_slice_whole, Rect.mem_set_unit]
  exact Iff.rfl

/-- Row `p` of the result lies in the block of the point whose row block index is `p / 2048`. -/
theorem covered (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 64 ≤ (i 1).val ∧ (i 1).val < win0_2.index t (1 : Fin 2) * 64 + 64
    omega

/-! ## The result after the run -/

/-- The result array ends holding the product of the two arrays. -/
theorem linArr_eq (c : Dev nD) : linArr V c = linG V c :=
  (dat0 (F := Ideal) V c).arrAt_eq_of_cover 2 (linG V c) (fun t _ => flushed_eq V c t) covered

/-- Entry (p, q) of the result is the sum over the contraction coordinate of the products of the operand's row `p`
    with the weight's column `q`. -/
theorem lin_final (c : Dev nD) (p : Fin 16384) (q : Fin 64) :
    linArr V c (ix2 p q) = ∑ k : Fin 64, xArr V c (ix2 p k) * wArr V c (ix2 k q) :=
  congrFun (linArr_eq V c) (ix2 p q)

end Cert.KernelIdeal.Hand

end
-- ==== Proof.LibMatmulRowsByRows.lean ====
/-
  A matrix product with no batch axis in which BOTH operands carry the contraction on their columns, rows × contraction
  by rows × contraction (the left operand times the transpose of the right), read at one entry on the extended reals:
  into a zero accumulator it is the plain sum over the contraction coordinate of the products of the two operands'
  entries, the left read on its row p and the right on its row q.  Stated once for any extents and any
  dimension-number record of that pattern, for the vector unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's columns and keep the left rows
    and the right rows, with no batch axis: the result's axis 0 is the left operand's axis 0 and the result's axis 1 is
    the right operand's axis 0. -/
structure IsRowsByRows (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

/-- The sum over the one-axis contraction index is the sum over its coordinate, the left operand read at
    (p, l) and the right at (q, l). -/
theorem rowsByRows_sum {φ₁ φ₂ : FTy} (D : DotDims ⟨2, ![M, K]⟩ ⟨2, ![N, K]⟩ ⟨2, ![M, N]⟩) (hD : IsRowsByRows D)
    (A : FVec Ideal ⟨2, ![M, K]⟩ φ₁) (B : FVec Ideal ⟨2, ![N, K]⟩ φ₂) (p : Fin M) (q : Fin N) :
    ∑ k : D.contr.Idx, A (D.lhsIdx (ix2 p q) k) * B (D.rhsIdx (ix2 p q) k) = ∑ l : Fin K, A (ix2 p l) * B (ix2 q l) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![N, K]⟩ ⟨2, ![M, N]⟩ := ⟨[1], [1], [0], [0], [], [], wf⟩ with hDdef
  rw [← Equiv.sum_comp (contrEquiv1 D K rfl rfl).symm]
  refine Finset.sum_congr rfl fun l _ => ?_
  have hk := contrEquiv1_symm_val D K rfl rfl l
  -- the left operand's row is the result's axis 0
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  -- the right operand's row is the result's axis 1 (the one kept right axis comes after the one kept left axis)
  have r0 : ∀ (i : (⟨2, ![M, N]⟩ : Shape).Idx) (k : D.contr.Idx), (D.rhsIdx i k 0).val = (i 1).val := by
    intro i k
    unfold DotDims.rhsIdx
    rw [dif_neg (show ¬(0 : Fin 2) ∈ ([] : List (Fin 2)) by decide), dif_pos (show (0 : Fin 2) ∈ ([0] : List (Fin 2)) by decide)]
    rfl
  have r1 : ∀ (i : (⟨2, ![M, N]⟩ : Shape).Idx) (k : D.contr.Idx), (D.rhsIdx i k 1).val = (k ⟨0, Nat.one_pos⟩).val :=
    fun i k => D.rhsIdx_val_of_single rfl i k
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 q l := funext fun a => Fin.ext (by
    match a with
    | ⟨0, _⟩ => exact r0 _ _
    | ⟨1, _⟩ => exact (r1 _ _).trans hk)
  rw [el, er]

/-- The vector unit's product into the zero accumulator, at entry (p, q). -/
theorem matmul_rowsByRows_apply {φ₁ φ₂ : FTy} (D : DotDims ⟨2, ![M, K]⟩ ⟨2, ![N, K]⟩ ⟨2, ![M, N]⟩) (hD : IsRowsByRows D)
    (prec : Option ContractPrecision) (A : FVec Ideal ⟨2, ![M, K]⟩ φ₁) (B : FVec Ideal ⟨2, ![N, K]⟩ φ₂) (p : Fin M) (q : Fin N) :
    matmul D prec A B (constant (F := Ideal) ⟨2, ![M, N]⟩ .f32 0x00000000#32) (ix2 p q) = ∑ l : Fin K, A (ix2 p l) * B (ix2 q l) := by
  simp only [matmul]
  rw [Ideal.matmul_constant_zero_apply]
  exact rowsByRows_sum D hD A B p q

/-- The host's product, at entry (p, q). -/
theorem dotGeneral_rowsByRows_apply {φ₁ φ₂ : FTy} (D : DotDims ⟨2, ![M, K]⟩ ⟨2, ![N, K]⟩ ⟨2, ![M, N]⟩) (hD : IsRowsByRows D)
    (prec : Option ContractPrecision) (A : FVec Ideal ⟨2, ![M, K]⟩ φ₁) (B : FVec Ideal ⟨2, ![N, K]⟩ φ₂) (p : Fin M) (q : Fin N) :
    Host.dotGeneral D prec A B (ix2 p q) = ∑ l : Fin K, A (ix2 p l) * B (ix2 q l) := by
  simp only [Host.dotGeneral]
  rw [Ideal.dotGeneral_apply]
  exact rowsByRows_sum D hD A B p q

end Cert.Gcn

end
-- ==== Proof.KernelIdeal.OuterValue.lean ====
/-
  The value of region 1 on the extended reals. At grid point (a, b) the body leaves in the output buffer the product of
  the clamped, biased row block with the transpose of the clamped, biased column block; both blocks are read from the
  one feature array, the row block at rows 2048·a + r and the column block at rows 1024·b + s, and the output block
  (a, b) holds entries (2048·a + r, 1024·b + s). So every point writes back its block of ONE function of the arrays
  the region finds — at (p, q) the sum over the 64 features of max(h p k + bias k, 0) · max(h q k + bias k, 0) —, the
  128 output blocks tile the [16384, 16384] array, and after the last point the array is that function.
-/
import proofs.«169551_j3745211482437_1_alg».proof.Proof.KernelIdeal.Reg1
import proofs.«169551_j3745211482437_1_alg».proof.Proof.LibMatmulRowsByRows
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's result at an entry -/

/-- The zero offsets, however spelt. -/
theorem offs_zero : (![0, 0] : Fin 2 → Nat) = fun _ => 0 := funext fun a => by fin_cases a <;> rfl

/-- Entry (r, s) of what the body leaves in the output buffer: the sum over the 64 features of the products of the
    clamped, biased entries of row r of the row block and of row s of the column block. -/
theorem outerOut_apply (hr : Vec Ideal S2048x64 .f32) (hc : Vec Ideal S1024x64 .f32) (b : Vec Ideal S1x64 .f32)
    (r : Fin 2048) (s : Fin 1024) :
    outerOut hr hc b (ix2 r s)
      = ∑ k : Fin 64, max (hr (ix2 r k) + b (ix2 (0 : Fin 1) k)) (0 : EReal) * max (hc (ix2 s k) + b (ix2 (0 : Fin 1) k)) (0 : EReal) := by
  unfold outerOut
  rw [View.canon_unit_zero offs_zero]
  simp only [View.ld_unit_zero (S := S1x64) offs_zero, View.ld_unit_zero (S := S2048x64) offs_zero,
    View.ld_unit_zero (S := S1024x64) offs_zero]
  unfold k1_pay1
  refine (Cert.Gcn.matmul_rowsByRows_apply dot_S2048x64_S1024x64_S2048x1024_1_1_0_0_n_n ⟨rfl, rfl, rfl, rfl, rfl, rfl⟩ none _ _ r s).trans ?_
  refine Finset.sum_congr rfl fun k _ => ?_
  rw [truncf_apply, truncf_apply, maximumf_apply, maximumf_apply, addf_apply, addf_apply, broadcast_apply, broadcast_apply,
    shapeCast_self, shapeCast_self, shapeCast_self, broadcastTo_1b_ab_apply, broadcastTo_1b_ab_apply,
    Ideal.ofBits_def, Ideal.ofBits_zero_f32]

/-! ## The arrays and the closed form -/

variable (V : (c : Dev nD) → (b : Ref sig .tc) → Buf (Elt Ideal) ((c : Thread nD τ).loc b))

/-- The node features the region finds, the bias as one row, and the result array after the region's last point. -/
abbrev hArr (c : Dev nD) : Vec Ideal S16384x64 .f32 := V c main_v43
abbrev bArr (c : Dev nD) : Vec Ideal S1x64 .f32 := V c main_v44
abbrev outArr (c : Dev nD) : Vec Ideal S16384x16384 .f32 := (dat1 (F := Ideal) V c).arrAt 3 cfg1.N

/-- The product of the clamped, biased features with their own transpose, entry by entry: at (p, q) the sum over the
    64 features of max(h p k + b k, 0) · max(h q k + b k, 0). -/
def gram (h : Vec Ideal S16384x64 .f32) (b : Vec Ideal S1x64 .f32) : Vec Ideal S16384x16384 .f32 := fun i =>
  ∑ k : Fin 64,
    max (h (ix2 (n0 := 16384) ⟨(i 0).val, idx2_lt0 i⟩ k) + b (ix2 (0 : Fin 1) k)) (0 : EReal)
      * max (h (ix2 (n0 := 16384) ⟨(i 1).val, idx2_lt1 i⟩ k) + b (ix2 (0 : Fin 1) k)) (0 : EReal)

/-! ## The index maps over the grid -/

/-- The grid is row-major, 8 by 16: at point t the row window and the output are on block row t / 16, the column
    window and the output on block column t % 16, and the bias window stays on its one block. -/
theorem idx_facts1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = t.val % 16 :=
  (by decide +kernel : ∀ t : Fin grid1.N, _)

/-! ## What a point writes back -/

/-- What point t writes back is block t of the closed form of the arrays the region finds: the row block sits where
    the output block's rows do, the column block where its columns do. -/
theorem flushed3_eq (c : Dev nD) (t : Fin cfg1.N) :
    (dat1 (F := Ideal) V c).flushed 3 t
      = ((cfg1.win 3).blk t).view.read (Elt Ideal) (gram (hArr V c) (bArr V c)) := by
  show (cfg1.win 3).cut (grid1.coords t) ((dat1 (F := Ideal) V c).after 3 t) = _
  rw [dat1_after_3]
  obtain ⟨e00, e01, e10, e11, e20, e21, e30, e31⟩ := idx_facts1 t
  funext j
  obtain ⟨r, s, rfl⟩ : ∃ (r : Fin 2048) (s : Fin 1024), j = ix2 r s := ⟨j 0, j 1, eq_ix2 j⟩
  show outerOut (blk1 V c 0 t) (blk1 V c 1 t) (blk1 V c 2 t) (ix2 r s)
    = gram (hArr V c) (bArr V c) (((cfg1.win 3).blk t).view.emb (ix2 r s))
  rw [outerOut_apply]
  unfold gram
  refine Finset.sum_congr rfl fun k _ => ?_
  have hrow : blk1 V c 0 t (ix2 r k)
      = hArr V c (ix2 (n0 := 16384) ⟨(((cfg1.win 3).blk t).view.emb (ix2 r s) 0).val, idx2_lt0 _⟩ k) := by
    show V c main_v43 (((cfg1.win 0).blk t).view.emb (ix2 r k)) = _
    refine congrArg (V c main_v43) (Shape.idx_ext₂ ?_ ?_)
    · show win1_0.index t (0 : Fin 2) * 2048 + 1 * r.val = win1_3.index t (0 : Fin 2) * 2048 + 1 * r.val
      omega
    · show win1_0.index t (1 : Fin 2) * 64 + 1 * k.val = k.val
      omega
  have hcol : blk1 V c 1 t (ix2 s k)
      = hArr V c (ix2 (n0 := 16384) ⟨(((cfg1.win 3).blk t).view.emb (ix2 r s) 1).val, idx2_lt1 _⟩ k) := by
    show V c main_v43 (((cfg1.win 1).blk t).view.emb (ix2 s k)) = _
    refine congrArg (V c main_v43) (Shape.idx_ext₂ ?_ ?_)
    · show win1_1.index t (0 : Fin 2) * 1024 + 1 * s.val = win1_3.index t (1 : Fin 2) * 1024 + 1 * s.val
      omega
    · show win1_1.index t (1 : Fin 2) * 64 + 1 * k.val = k.val
      omega
  have hbias : blk1 V c 2 t (ix2 (0 : Fin 1) k) = bArr V c (ix2 (0 : Fin 1) k) := by
    show V c main_v44 (((cfg1.win 2).blk t).view.emb (ix2 (0 : Fin 1) k)) = _
    refine congrArg (V c main_v44) (Shape.idx_ext₂ ?_ ?_)
    · show win1_2.index t (0 : Fin 2) * 1 + 1 * 0 = 0
      omega
    · show win1_2.index t (1 : Fin 2) * 64 + 1 * k.val = k.val
      omega
  rw [hrow, hcol, hbias]

/-! ## The output blocks tile the array -/

/-- An entry of the array is in point t's block iff each coordinate is in the block's range on its axis. -/
theorem mem_blk3 (t : Fin cfg1.N) (i : S16384x16384.Idx) :
    i ∈ ((cfg1.win 3).blk t).view.set
      ↔ ∀ a : Fin 2, win1_3.index t a * S2048x1024.size a ≤ (i a).val
          ∧ (i a).val < win1_3.index t a * S2048x1024.size a + S2048x1024.size a := by
  show i ∈ ((View.whole main_v45).slice (win1_3.rect t)).set ↔ _
  rw [View.set_slice_whole, Rect.mem_set_unit]
  exact Iff.rfl

/-- Entry (p, q) is in the block of the point on block row p / 2048 and block column q / 1024. -/
theorem cover3 (i : S16384x16384.Idx) :
    ∃ t : Fin cfg1.N, (cfg1.win 3).flush t = true ∧ i ∈ ((cfg1.win 3).blk t).view.set := by
  have hi0 : (i 0).val < 16384 := (i 0).isLt
  have hi1 : (i 1).val < 16384 := (i 1).isLt
  obtain ⟨t, tv⟩ : ∃ t : Fin cfg1.N, t.val = (i 0).val / 2048 * 16 + (i 1).val / 1024 :=
    ⟨⟨(i 0).val / 2048 * 16 + (i 1).val / 1024, by show _ < grid1.N; rw [N_1]; omega⟩, rfl⟩
  refine ⟨t, flush1_3 t, ?_⟩
  rw [mem_blk3]
  obtain ⟨-, -, -, -, -, -, e30, e31⟩ := idx_facts1 t
  intro a
  match a with
  | ⟨0, _⟩ =>
    show win1_3.index t (0 : Fin 2) * 2048 ≤ (i 0).val ∧ (i 0).val < win1_3.index t (0 : Fin 2) * 2048 + 2048
    omega
  | ⟨1, _⟩ =>
    show win1_3.index t (1 : Fin 2) * 1024 ≤ (i 1).val ∧ (i 1).val < win1_3.index t (1 : Fin 2) * 1024 + 1024
    omega

/-! ## The array after the region -/

/-- The result array after the last point is the closed form of the arrays the region found. -/
theorem outArr_eq (c : Dev nD) : outArr V c = gram (hArr V c) (bArr V c) :=
  (dat1 (F := Ideal) V c).arrAt_eq_of_cover 3 _ (fun t _ => flushed3_eq V c t) cover3

/-- Entry (p, q) of the result: the sum over the 64 features of the products of the clamped, biased features of
    node p and of node q. -/
theorem outer_final (c : Dev nD) (p q : Fin 16384) :
    outArr V c (ix2 p q) = ∑ k : Fin 64,
      max (hArr V c (ix2 p k) + bArr V c (ix2 (0 : Fin 1) k)) (0 : EReal)
        * max (hArr V c (ix2 q k) + bArr V c (ix2 (0 : Fin 1) k)) (0 : EReal) :=
  (congrFun (outArr_eq V c) (ix2 p q)).trans rfl

end Cert.KernelIdeal.Hand

end
-- ==== Proof.RefFinal.lean ====
/-
  The reference's last stages at one entry of the result.  The projection is the plain matrix product of the
  features by the weights.  The graph glue (two gathers, a scaling and a scatter-add driven by the edge list) is kept
  as ONE function `glue` of the projected features and the edge list; it is never read at an index.  After it the
  bias is added along the columns, negative entries are clamped to zero, and the result is the Gram matrix of the
  rows: entry (p, q) is the sum over the 64 columns of the products of row p and row q.
-/
import proofs.«169551_j3745211482437_1_alg».proof.Proof.RefRead
import proofs.«169551_j3745211482437_1_alg».proof.Proof.LibMatmulPlain
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Cert.ReferenceIdeal.ReadP Idealize.ShloMosaic Idealize.ShloMosaic.TcCoe Idealize.ShloMosaic.ValueIdx

/-- The graph glue as one function of the projected features `h` and the edge list: gather the rows of `h` at the
    edges' sources, scale each gathered row by its edge weight, and scatter-add the scaled rows into a zero array at
    the edges' targets. -/
def glue {F : FTy → Type} [FloatOps F] (h : (⟨S16384x64, .f32⟩ : BufTy).Contents (Elt F))
    (x1 : (⟨S2x524288, .i32⟩ : BufTy).Contents (Elt F)) : (⟨S16384x64, .f32⟩ : BufTy).Contents (Elt F) :=
  Host.scatterAdd scatter_S16384x64_S540672x1_S540672x64_1_0_0_1 (val_main_v41 (F := F)) (val_main_v42 (F := F) x1)
    (mulf (Host.gather gather_S16384x64_S540672x1_S540672x64_1_0_n_n_0_1_164 h (val_main_v36 (F := F) x1))
      (val_main_v39 (F := F) x1))

/-- The reference's aggregated features are the glue applied to its projection. -/
theorem v43_eq_glue {F : FTy → Type} [FloatOps F] (x0 : (⟨S16384x64, .f32⟩ : BufTy).Contents (Elt F))
    (x1 : (⟨S2x524288, .i32⟩ : BufTy).Contents (Elt F)) (x2 : (⟨S64x64, .f32⟩ : BufTy).Contents (Elt F)) :
    val_main_v43 (F := F) x0 x1 x2 = glue (val_main_v30 (F := F) x0 x2) x1 := by
  unfold val_main_v43 val_main_v40 val_main_v37 glue
  rfl

/-- The projection at entry (p, q): row p of the features against column q of the weights. -/
theorem ref_lin (x0 : (⟨S16384x64, .f32⟩ : BufTy).Contents (Elt Ideal)) (x2 : (⟨S64x64, .f32⟩ : BufTy).Contents (Elt Ideal))
    (p : Fin 16384) (q : Fin 64) :
    val_main_v30 x0 x2 (ix2 p q) = ∑ k : Fin 64, x0 (ix2 p k) * x2 (ix2 k q) := by
  rw [val_main_v30_apply]
  refine Finset.sum_congr rfl fun k _ => ?_
  have hl : lidx_main_v30 (ix2 p q) k = ix2 p k := funext fun a => match a with
    | ⟨0, _⟩ => rfl
    | ⟨1, _⟩ => rfl
  have hr : ridx_main_v30 (ix2 p q) k = ix2 k q := funext fun a => match a with
    | ⟨0, _⟩ => rfl
    | ⟨1, _⟩ => rfl
  rw [hl, hr]

/-- The clamped, biased features at entry (p, k). -/
theorem ref_relu (x0 : (⟨S16384x64, .f32⟩ : BufTy).Contents (Elt Ideal)) (x1 : (⟨S2x524288, .i32⟩ : BufTy).Contents (Elt Ideal))
    (x2 : (⟨S64x64, .f32⟩ : BufTy).Contents (Elt Ideal)) (x3 : (⟨S64, .f32⟩ : BufTy).Contents (Elt Ideal))
    (p : Fin 16384) (k : Fin 64) :
    val_main_v47 x0 x1 x2 x3 (ix2 p k) = max (val_main_v43 x0 x1 x2 (ix2 p k) + x3 (ix1 k)) (0 : EReal) := by
  have hb : idx_main_v44 (idx_main_v45 (ix2 p k)) = ix1 k := funext fun a => match a with
    | ⟨0, _⟩ => rfl
  rw [val_main_v47_apply, val_main_v46_apply, val_main_v45_apply, val_main_v44_apply, hb, val_main_call1_v0_apply,
    val_main_call1_cst_apply, Ideal.maximumf_def, Ideal.addf_def, Ideal.ofBits_def, Ideal.ofBits_zero_f32]

/-- The reference's result at entry (p, q): the sum over the columns of the products of the clamped, biased
    aggregated features of rows p and q. -/
theorem ref_final (x0 : (⟨S16384x64, .f32⟩ : BufTy).Contents (Elt Ideal)) (x1 : (⟨S2x524288, .i32⟩ : BufTy).Contents (Elt Ideal))
    (x2 : (⟨S64x64, .f32⟩ : BufTy).Contents (Elt Ideal)) (x3 : (⟨S64, .f32⟩ : BufTy).Contents (Elt Ideal))
    (p q : Fin 16384) :
    val_main_v49 x0 x1 x2 x3 (ix2 p q) = ∑ k : Fin 64,
      max (val_main_v43 x0 x1 x2 (ix2 p k) + x3 (ix1 k)) (0 : EReal) * max (val_main_v43 x0 x1 x2 (ix2 q k) + x3 (ix1 k)) (0 : EReal) := by
  rw [val_main_v49_apply]
  refine Finset.sum_congr rfl fun k _ => ?_
  have hl : lidx_main_v49 (ix2 p q) k = ix2 p k := funext fun a => match a with
    | ⟨0, _⟩ => rfl
    | ⟨1, _⟩ => rfl
  have hr : idx_main_v48 (ridx_main_v49 (ix2 p q) k) = ix2 q k := funext fun a => match a with
    | ⟨0, _⟩ => rfl
    | ⟨1, _⟩ => rfl
  rw [val_main_v48_apply, hl, hr, ref_relu, ref_relu]

end Cert.ReferenceIdeal.Hand

end
-- ==== Proof.KernelIdeal.HostGlue.lean ====
/-
  The host operations between the kernel's two launches are the reference's graph glue.  They take the first
  launch's result (the projected features) and the edge list, gather the projected rows at the edges' sources,
  scale each gathered row by its edge weight, and scatter-add the scaled rows at the edges' targets: as a function of
  the projected features and the edge list this is the same composition of the same operations as in the reference,
  so the two are equal by unfolding, for any float values.  The bias reaches the second launch as a one-row matrix,
  whose entry (0, k) is the bias's entry k.
-/
import proofs.«169551_j3745211482437_1_alg».proof.Proof.Gen.KernelIdeal.Launch
import proofs.«169551_j3745211482437_1_alg».proof.Proof.RefFinal
import Idealize.ShloMosaic.Lib.StableHlo.Run
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx Idealize.ShloMosaic.StableHlo

variable {F : FTy → Type} [FloatOps F]

set_option maxRecDepth 8192 in
set_option maxHeartbeats 4000000 in
/-- After the three host stretches the aggregated features are the glue applied to the first launch's result and
    the edge list, whatever the buffers held before. -/
theorem host_v43 (Vin : Valuation τ sig (Elt F)) :
    StableHlo.after (hostOps1_2 (F := F)) (StableHlo.after hostOps1_1 (StableHlo.after hostOps1 Vin)) (Proc.devRef .tc main_v43)
      = Cert.ReferenceIdeal.Hand.glue (Vin (Proc.devRef .tc main_v0)) (Vin (Proc.devRef .tc main_arg1)) := by
  after_results_simp
  rfl

set_option maxRecDepth 8192 in
set_option maxHeartbeats 4000000 in
/-- After the three host stretches the one-row bias matrix is the bias vector recast to one row of 64. -/
theorem host_v44_cast (Vin : Valuation τ sig (Elt F)) :
    (StableHlo.after (hostOps1_2 (F := F)) (StableHlo.after hostOps1_1 (StableHlo.after hostOps1 Vin)) (Proc.devRef .tc main_v44) : Vec F S1x64 .f32)
      = shapeCast S1x64 (Vin (Proc.devRef .tc main_arg3) : Vec F S64 .f32) shapeCasts_S64_S1x64 := by
  after_results_simp
  rfl

/-- Its entry (0, k) is the bias's entry k: both sit at row-major position k. -/
theorem host_v44 (Vin : Valuation τ sig (Elt F)) (k : Fin 64) :
    (StableHlo.after (hostOps1_2 (F := F)) (StableHlo.after hostOps1_1 (StableHlo.after hostOps1 Vin)) (Proc.devRef .tc main_v44) : Vec F S1x64 .f32) (ix2 (0 : Fin 1) k)
      = (Vin (Proc.devRef .tc main_arg3) : Vec F S64 .f32) (ix1 k) := by
  refine (congrFun (host_v44_cast Vin) _).trans ?_
  exact shapeCast_apply _ shapeCasts_S64_S1x64 (ix2 (0 : Fin 1) k) (ix1 k) (by
    rw [Shape.rowMajor_val_one, Shape.rowMajor_val_two]
    show k.val = (0 : Fin 1).val * 64 + k.val
    simp)

end Cert.KernelIdeal.Hand

end
-- ==== Proof.Bridge.lean ====
/-
  On the extended reals the idealized kernel's result array is the reference's result, as functions of the four
  argument arrays. Region 0 leaves in its result array the plain product of the features with the weights, which is
  the reference's projection; the host operations between the two regions apply to it and to the edge list the same
  graph aggregation the reference applies, carried as one function and never opened; the bias reaches region 1 as a
  one-row matrix; and region 1 leaves at entry (p, q) the sum over the 64 columns of the products of the biased,
  clamped aggregated features of rows p and q, which is what the reference's final product of the clamped features
  with their transpose computes. No step moves a factor across a sum or cancels anything, so nothing here asks the
  inputs to be finite.
-/
import proofs.«169551_j3745211482437_1_alg».proof.Proof.KernelIdeal.Run
import proofs.«169551_j3745211482437_1_alg».proof.Proof.KernelIdeal.LinValue
import proofs.«169551_j3745211482437_1_alg».proof.Proof.KernelIdeal.OuterValue
import proofs.«169551_j3745211482437_1_alg».proof.Proof.KernelIdeal.HostGlue
import proofs.«169551_j3745211482437_1_alg».proof.Proof.RefFinal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.ReferenceIdeal.ReadP (val_main_v30 val_main_v43 val_main_v49)
open Cert.ReferenceIdeal.Hand (glue v43_eq_glue ref_lin ref_final)

variable (m : (ℓ : Loc nD τ sig) → Buf (Elt Ideal) ℓ)

/-- The four argument arrays as launched: features, edge list, weights, bias. -/
abbrev featArg (c : Dev nD) : Vec Ideal S16384x64 .f32 := m ((c.tc : Thread nD τ).loc main_arg0)
abbrev edgeArg (c : Dev nD) : (⟨S2x524288, .i32⟩ : BufTy).Contents (Elt Ideal) := m ((c.tc : Thread nD τ).loc main_arg1)
abbrev weightArg (c : Dev nD) : Vec Ideal S64x64 .f32 := m ((c.tc : Thread nD τ).loc main_arg2)
abbrev biasArg (c : Dev nD) : Vec Ideal S64 .f32 := m ((c.tc : Thread nD τ).loc main_arg3)

/-- After region 0 its result array is the reference's projection of the launched features and weights. -/
theorem proj_eq (c : Dev nD) :
    (W1 m c (Proc.devRef .tc main_v0) : Vec Ideal S16384x64 .f32) = val_main_v30 (featArg m c) (weightArg m c) := by
  funext i
  obtain ⟨p, q, rfl⟩ : ∃ (p : Fin 16384) (q : Fin 64), i = ix2 p q := ⟨i 0, i 1, eq_ix2 i⟩
  rw [ref_lin]
  exact (congrFun (W1_arr m c 2) (ix2 p q)).trans (lin_final (U0 m) c p q)

/-- Before region 1 the feature array holds the reference's aggregated features: the same graph aggregation, applied
    to the same projection and the same edge list. -/
theorem feat_eq (c : Dev nD) : hArr (U4 m) c = val_main_v43 (featArg m c) (edgeArg m c) (weightArg m c) :=
  calc hArr (U4 m) c
      = glue (F := Ideal) (W1 m c (Proc.devRef .tc main_v0)) (W1 m c (Proc.devRef .tc main_arg1)) := host_v43 (F := Ideal) (W1 m c)
    _ = glue (F := Ideal) (val_main_v30 (featArg m c) (weightArg m c)) (edgeArg m c) :=
        congrArg₂ (glue (F := Ideal)) (proj_eq m c) (W1_of_ne m c main_arg1 (by decide))
    _ = val_main_v43 (featArg m c) (edgeArg m c) (weightArg m c) := (v43_eq_glue _ _ _).symm

/-- Before region 1 the one-row bias matrix holds the launched bias. -/
theorem bias_eq (c : Dev nD) (k : Fin 64) : bArr (U4 m) c (ix2 (0 : Fin 1) k) = biasArg m c (ix1 k) :=
  (host_v44 (F := Ideal) (W1 m c) k).trans (congrFun (W1_of_ne m c main_arg3 (by decide)) (ix1 k))

/-- The result array after the run is the reference's result of the launched arguments. -/
theorem result_eq (c : Dev nD) :
    ((dat1 (F := Ideal) (U4 m) c).arrAt 3 cfg1.N : Vec Ideal S16384x16384 .f32)
      = val_main_v49 (featArg m c) (edgeArg m c) (weightArg m c) (biasArg m c) := by
  funext i
  obtain ⟨p, q, rfl⟩ : ∃ (p q : Fin 16384), i = ix2 p q := ⟨i 0, i 1, eq_ix2 i⟩
  rw [ref_final]
  refine (outer_final (U4 m) c p q).trans ?_
  refine Finset.sum_congr rfl fun k _ => ?_
  rw [feat_eq m c, bias_eq m c k]

end Cert.KernelIdeal.Hand

end
-- ==== Proof.lean ====
/-
  The certificate of the graph-convolution structure decoder: a row-tiled projection x · W and a tiled Gram
  product relu(h + b) · relu(h + b)ᵀ as two pipelined kernels, with the sparse normalised aggregation between them
  as host operations, against the plain reference that does all of it on the host.
  The three frames: both kernel programs run through the same five items (region, three host stretches, region), each
  region's body obligation proved once for any float instance, region 1 reading one array through two windows at the
  two halves of its share; the reference is a straight line of host operations.
  The idealization rewrote nothing, so its preservation claim is empty.
  The value claim: on the extended reals both programs end with entry (p, q) of the result at
  ∑ₖ max(a p k + b k, 0) · max(a q k + b k, 0), where a is the aggregation of x · W along the edge list: the two
  programs apply the same aggregation to the same product, and a tiled matrix product into a zero accumulator is the
  same sum as the host's product.
-/
import proofs.«169551_j3745211482437_1_alg».proof.Defs
import proofs.«169551_j3745211482437_1_alg».proof.Proof.Gen.Kernel
import proofs.«169551_j3745211482437_1_alg».proof.Proof.Gen.KernelIdeal
import proofs.«169551_j3745211482437_1_alg».proof.Proof.Gen.ReferenceIdeal
import proofs.«169551_j3745211482437_1_alg».proof.Proof.Gen.Pre_finite_inputs
import proofs.«169551_j3745211482437_1_alg».proof.Proof.Kernel.Run
import proofs.«169551_j3745211482437_1_alg».proof.Proof.KernelIdeal.Run
import proofs.«169551_j3745211482437_1_alg».proof.Proof.Bridge
import proofs.«169551_j3745211482437_1_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame m ρ
theorem frame_kernelIdeal : Cert.frame_KernelIdeal := fun m ρ _ => Cert.KernelIdeal.Hand.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs, from memories that agree on the arguments, end with the result array at the reference's last
    stage of the kernel side's launched arguments. -/
theorem algebraic : Cert.algebraic_KernelIdeal_ReferenceIdeal := by
  intro m ρ m' ρ' _ hagree
  refine ⟨fun c => Cert.ReferenceIdeal.ReadP.val_main_v49 (F := Ideal) (Cert.KernelIdeal.Hand.featArg m c) (Cert.KernelIdeal.Hand.edgeArg m c)
    (Cert.KernelIdeal.Hand.weightArg m c) (Cert.KernelIdeal.Hand.biasArg m c), ?_, ?_⟩
  · exact (θ_run Cert.KernelIdeal.defs _ _).mono
      (fun r h c => ⟨(h c).1.trans (Cert.KernelIdeal.Hand.result_eq m c), (h c).2⟩)
      (Cert.KernelIdeal.Hand.run_result (F := Ideal) m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v49_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
